-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64x4 : Shape := ⟨4, ![64, 2048, 64, 4]⟩
abbrev S_ : Shape := ⟨0, ![]⟩

class Facts : Prop where
  bcast_S_S64x2048x64x4 : S_.BroadcastsInDim S64x2048x64x4 (![] : Fin 0 → Fin S64x2048x64x4.rank)
  reducesTo_S64x2048x64x4_S_d0_1_2_3 : S64x2048x64x4.ReducesTo [0, 1, 2, 3] S_
  h_S_ : 0 < S_.numel

variable [Facts]

def fn {F : FTy → Type} [FloatOps F] (main_arg0 : FVec F S64x2048x64x4 .f32) (main_arg1 : IVec S64x2048x64x4 32) : IVec S_ 1 :=
  let main_v0 : FVec F S64x2048x64x4 .f32 := Host.absf main_arg0
  let main_cst : FVec F S_ .f32 := constant S_ .f32 0x7F800000#32
  let main_v1 : FVec F S64x2048x64x4 .f32 := broadcastInDim S64x2048x64x4 ![] bcast_S_S64x2048x64x4 main_cst
  let main_v2 : IVec S64x2048x64x4 1 := cmpf .olt main_v0 main_v1
  let main_c : IVec S_ 1 := constantI S_ 1 1#1
  let main_v3 : IVec S_ 1 := (fun x v => Host.reduce IntOp.andi x v reducesTo_S64x2048x64x4_S_d0_1_2_3 h_S_) main_v2 main_c
  main_v3
-- ==== Kernel.lean ====
abbrev S64x2048x64x4 : Shape := ⟨4, ![64, 2048, 64, 4]⟩
abbrev S64x2048x256 : Shape := ⟨3, ![64, 2048, 256]⟩
abbrev S2x2048x128 : Shape := ⟨3, ![2, 2048, 128]⟩
abbrev S2x1x128 : Shape := ⟨3, ![2, 1, 128]⟩
abbrev S2x2047x128 : Shape := ⟨3, ![2, 2047, 128]⟩
abbrev S2x2x128 : Shape := ⟨3, ![2, 2, 128]⟩
abbrev S2x2046x128 : Shape := ⟨3, ![2, 2046, 128]⟩
abbrev S2x4x128 : Shape := ⟨3, ![2, 4, 128]⟩
abbrev S2x2044x128 : Shape := ⟨3, ![2, 2044, 128]⟩
abbrev S2x8x128 : Shape := ⟨3, ![2, 8, 128]⟩
abbrev S2x2040x128 : Shape := ⟨3, ![2, 2040, 128]⟩
abbrev S2x16x128 : Shape := ⟨3, ![2, 16, 128]⟩
abbrev S2x2032x128 : Shape := ⟨3, ![2, 2032, 128]⟩
abbrev S2x32x128 : Shape := ⟨3, ![2, 32, 128]⟩
abbrev S2x2016x128 : Shape := ⟨3, ![2, 2016, 128]⟩
abbrev S2x64x128 : Shape := ⟨3, ![2, 64, 128]⟩
abbrev S2x1984x128 : Shape := ⟨3, ![2, 1984, 128]⟩
abbrev S2x128x128 : Shape := ⟨3, ![2, 128, 128]⟩
abbrev S2x1920x128 : Shape := ⟨3, ![2, 1920, 128]⟩
abbrev S2x256x128 : Shape := ⟨3, ![2, 256, 128]⟩
abbrev S2x1792x128 : Shape := ⟨3, ![2, 1792, 128]⟩
abbrev S2x512x128 : Shape := ⟨3, ![2, 512, 128]⟩
abbrev S2x1536x128 : Shape := ⟨3, ![2, 1536, 128]⟩
abbrev S2x1024x128 : Shape := ⟨3, ![2, 1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S64x2048x64x4, .f32⟩
  | .hbm, ⟨1, _⟩ => ⟨S64x2048x64x4, .i32⟩
  | .hbm, ⟨2, _⟩ => ⟨S64x2048x256, .f32⟩
  | .hbm, ⟨3, _⟩ => ⟨S64x2048x256, .i32⟩
  | .hbm, ⟨4, _⟩ => ⟨S64x2048x256, .f32⟩
  | .hbm, ⟨5, _⟩ => ⟨S64x2048x64x4, .f32⟩
  | .local _ .vmem, ⟨0, _⟩ => ⟨S2x2048x128, .f32⟩
  | .local _ .vmem, ⟨1, _⟩ => ⟨S2x2048x128, .f32⟩
  | .local _ .vmem, ⟨2, _⟩ => ⟨S2x2048x128, .i32⟩
  | .local _ .vmem, ⟨3, _⟩ => ⟨S2x2048x128, .i32⟩
  | .local _ .vmem, ⟨4, _⟩ => ⟨S2x2048x128, .f32⟩
  | .local _ .vmem, ⟨5, _⟩ => ⟨S2x2048x128, .f32⟩
  | _, _ => ⟨S64x2048x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x2048x64x4_S64x2048x256 : S64x2048x64x4.ShapeCasts S64x2048x256
  inb_S2x2048x128_S2x2048x128_0_0_0 : ∀ a, (![0, 0, 0] : Fin 3 → Nat) a + S2x2048x128.size a ≤ S2x2048x128.size a
  h_S2x2048x128 : 0 < S2x2048x128.numel
  shapeCasts_S2x2048x128_S2x2048x128 : S2x2048x128.ShapeCasts S2x2048x128
  iota_S2x2048x128_d1_w32 : S2x2048x128.Iotas .tc 32 [1]
  slices_S2x2048x128_o0_0_0_S2x2047x128 : S2x2048x128.Slices ![0, 0, 0] S2x2047x128
  concatenates_S2x1x128_S2x2047x128_S2x2048x128_d1 : Shape.Concatenates [S2x1x128, S2x2047x128] S2x2048x128 1
  slices_S2x2048x128_o0_1_0_S2x2047x128 : S2x2048x128.Slices ![0, 1, 0] S2x2047x128
  concatenates_S2x2047x128_S2x1x128_S2x2048x128_d1 : Shape.Concatenates [S2x2047x128, S2x1x128] S2x2048x128 1
  slices_S2x2048x128_o0_0_0_S2x2046x128 : S2x2048x128.Slices ![0, 0, 0] S2x2046x128
  concatenates_S2x2x128_S2x2046x128_S2x2048x128_d1 : Shape.Concatenates [S2x2x128, S2x2046x128] S2x2048x128 1
  slices_S2x2048x128_o0_2_0_S2x2046x128 : S2x2048x128.Slices ![0, 2, 0] S2x2046x128
  concatenates_S2x2046x128_S2x2x128_S2x2048x128_d1 : Shape.Concatenates [S2x2046x128, S2x2x128] S2x2048x128 1
  slices_S2x2048x128_o0_0_0_S2x2044x128 : S2x2048x128.Slices ![0, 0, 0] S2x2044x128
  concatenates_S2x4x128_S2x2044x128_S2x2048x128_d1 : Shape.Concatenates [S2x4x128, S2x2044x128] S2x2048x128 1
  slices_S2x2048x128_o0_4_0_S2x2044x128 : S2x2048x128.Slices ![0, 4, 0] S2x2044x128
  concatenates_S2x2044x128_S2x4x128_S2x2048x128_d1 : Shape.Concatenates [S2x2044x128, S2x4x128] S2x2048x128 1
  slices_S2x2048x128_o0_0_0_S2x2040x128 : S2x2048x128.Slices ![0, 0, 0] S2x2040x128
  concatenates_S2x8x128_S2x2040x128_S2x2048x128_d1 : Shape.Concatenates [S2x8x128, S2x2040x128] S2x2048x128 1
  slices_S2x2048x128_o0_8_0_S2x2040x128 : S2x2048x128.Slices ![0, 8, 0] S2x2040x128
  concatenates_S2x2040x128_S2x8x128_S2x2048x128_d1 : Shape.Concatenates [S2x2040x128, S2x8x128] S2x2048x128 1
  slices_S2x2048x128_o0_0_0_S2x2032x128 : S2x2048x128.Slices ![0, 0, 0] S2x2032x128
  concatenates_S2x16x128_S2x2032x128_S2x2048x128_d1 : Shape.Concatenates [S2x16x128, S2x2032x128] S2x2048x128 1
  slices_S2x2048x128_o0_16_0_S2x2032x128 : S2x2048x128.Slices ![0, 16, 0] S2x2032x128
  concatenates_S2x2032x128_S2x16x128_S2x2048x128_d1 : Shape.Concatenates [S2x2032x128, S2x16x128] S2x2048x128 1
  slices_S2x2048x128_o0_0_0_S2x2016x128 : S2x2048x128.Slices ![0, 0, 0] S2x2016x128
  concatenates_S2x32x128_S2x2016x128_S2x2048x128_d1 : Shape.Concatenates [S2x32x128, S2x2016x128] S2x2048x128 1
  slices_S2x2048x128_o0_32_0_S2x2016x128 : S2x2048x128.Slices ![0, 32, 0] S2x2016x128
  concatenates_S2x2016x128_S2x32x128_S2x2048x128_d1 : Shape.Concatenates [S2x2016x128, S2x32x128] S2x2048x128 1
  slices_S2x2048x128_o0_0_0_S2x1984x128 : S2x2048x128.Slices ![0, 0, 0] S2x1984x128
  concatenates_S2x64x128_S2x1984x128_S2x2048x128_d1 : Shape.Concatenates [S2x64x128, S2x1984x128] S2x2048x128 1
  slices_S2x2048x128_o0_64_0_S2x1984x128 : S2x2048x128.Slices ![0, 64, 0] S2x1984x128
  concatenates_S2x1984x128_S2x64x128_S2x2048x128_d1 : Shape.Concatenates [S2x1984x128, S2x64x128] S2x2048x128 1
  slices_S2x2048x128_o0_0_0_S2x1920x128 : S2x2048x128.Slices ![0, 0, 0] S2x1920x128
  concatenates_S2x128x128_S2x1920x128_S2x2048x128_d1 : Shape.Concatenates [S2x128x128, S2x1920x128] S2x2048x128 1
  slices_S2x2048x128_o0_128_0_S2x1920x128 : S2x2048x128.Slices ![0, 128, 0] S2x1920x128
  concatenates_S2x1920x128_S2x128x128_S2x2048x128_d1 : Shape.Concatenates [S2x1920x128, S2x128x128] S2x2048x128 1
  slices_S2x2048x128_o0_0_0_S2x1792x128 : S2x2048x128.Slices ![0, 0, 0] S2x1792x128
  concatenates_S2x256x128_S2x1792x128_S2x2048x128_d1 : Shape.Concatenates [S2x256x128, S2x1792x128] S2x2048x128 1
  slices_S2x2048x128_o0_256_0_S2x1792x128 : S2x2048x128.Slices ![0, 256, 0] S2x1792x128
  concatenates_S2x1792x128_S2x256x128_S2x2048x128_d1 : Shape.Concatenates [S2x1792x128, S2x256x128] S2x2048x128 1
  slices_S2x2048x128_o0_0_0_S2x1536x128 : S2x2048x128.Slices ![0, 0, 0] S2x1536x128
  concatenates_S2x512x128_S2x1536x128_S2x2048x128_d1 : Shape.Concatenates [S2x512x128, S2x1536x128] S2x2048x128 1
  slices_S2x2048x128_o0_512_0_S2x1536x128 : S2x2048x128.Slices ![0, 512, 0] S2x1536x128
  concatenates_S2x1536x128_S2x512x128_S2x2048x128_d1 : Shape.Concatenates [S2x1536x128, S2x512x128] S2x2048x128 1
  slices_S2x2048x128_o0_0_0_S2x1024x128 : S2x2048x128.Slices ![0, 0, 0] S2x1024x128
  concatenates_S2x1024x128_S2x1024x128_S2x2048x128_d1 : Shape.Concatenates [S2x1024x128, S2x1024x128] S2x2048x128 1
  slices_S2x2048x128_o0_1024_0_S2x1024x128 : S2x2048x128.Slices ![0, 1024, 0] S2x1024x128
  shapeCasts_S64x2048x256_S64x2048x64x4 : S64x2048x256.ShapeCasts S64x2048x64x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x128.size a ≤ S64x2048x256.size a
  hwx0_0 : ∀ i : grid0.Coords, EltTy.bits .f32 = 32 ∨ (Rect.block (s := S64x2048x256) S2x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x128.size a ≤ S64x2048x256.size a
  hwx0_1 : ∀ i : grid0.Coords, EltTy.bits .i32 = 32 ∨ (Rect.block (s := S64x2048x256) S2x2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048x128.size a ≤ S64x2048x256.size a
  hwx0_2 : ∀ i : grid0.Coords, EltTy.bits .f32 = 32 ∨ (Rect.block (s := S64x2048x256) S2x2048x128.size (cc0_transform_2 i) (hinb0_2 i)).WholeWords (EltTy.packing .f32)

variable [Facts₀]

abbrev win0_0 : Pipeline.Window sig grid0 :=
  Pipeline.Window.ofSpec (Memref.whole main_v0) S2x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x64x4 : Shape := ⟨4, ![64, 2048, 64, 4]⟩
abbrev S2048 : Shape := ⟨1, ![2048]⟩
abbrev S1x2048x1x1 : Shape := ⟨4, ![1, 2048, 1, 1]⟩
abbrev S_ : Shape := ⟨0, ![]⟩
abbrev S64x2048x64x4x1 : Shape := ⟨5, ![64, 2048, 64, 4, 1]⟩
abbrev S1 : Shape := ⟨1, ![1]⟩
abbrev S1x1x1x1x1 : Shape := ⟨5, ![1, 1, 1, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S64x2048x64x4, .f32⟩
  | .hbm, ⟨1, _⟩ => ⟨S64x2048x64x4, .i32⟩
  | .hbm, ⟨2, _⟩ => ⟨S2048, .i32⟩
  | .hbm, ⟨3, _⟩ => ⟨S1x2048x1x1, .i32⟩
  | .hbm, ⟨4, _⟩ => ⟨S_, .i32⟩
  | .hbm, ⟨5, _⟩ => ⟨S64x2048x64x4, .i32⟩
  | .hbm, ⟨6, _⟩ => ⟨S64x2048x64x4, .i1⟩
  | .hbm, ⟨7, _⟩ => ⟨S64x2048x64x4, .i32⟩
  | .hbm, ⟨8, _⟩ => ⟨S_, .i32⟩
  | .hbm, ⟨9, _⟩ => ⟨S_, .i32⟩
  | .hbm, ⟨10, _⟩ => ⟨S64x2048x64x4, .i32⟩
  | .hbm, ⟨11, _⟩ => ⟨S64x2048x64x4, .i32⟩
  | .hbm, ⟨12, _⟩ => ⟨S_, .i32⟩
  | .hbm, ⟨13, _⟩ => ⟨S_, .i32⟩
  | .hbm, ⟨14, _⟩ => ⟨S64x2048x64x4, .i32⟩
  | .hbm, ⟨15, _⟩ => ⟨S_, .i32⟩
  | .hbm, ⟨16, _⟩ => ⟨S_, .i32⟩
  | .hbm, ⟨17, _⟩ => ⟨S64x2048x64x4, .i32⟩
  | .hbm, ⟨18, _⟩ => ⟨S64x2048x64x4, .i32⟩
  | .hbm, ⟨19, _⟩ => ⟨S_, .i32⟩
  | .hbm, ⟨20, _⟩ => ⟨S_, .i32⟩
  | .hbm, ⟨21, _⟩ => ⟨S64x2048x64x4, .i32⟩
  | .hbm, ⟨22, _⟩ => ⟨S_, .i32⟩
  | .hbm, ⟨23, _⟩ => ⟨S64x2048x64x4, .i32⟩
  | .hbm, ⟨24, _⟩ => ⟨S64x2048x64x4, .i1⟩
  | .hbm, ⟨25, _⟩ => ⟨S_, .i32⟩
  | .hbm, ⟨26, _⟩ => ⟨S64x2048x64x4, .i32⟩
  | .hbm, ⟨27, _⟩ => ⟨S64x2048x64x4, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S64x2048x64x4, .i32⟩
  | .hbm, ⟨32, _⟩ => ⟨S64x2048x64x4, .i32⟩
  | .hbm, ⟨33, _⟩ => ⟨S_, .i32⟩
  | .hbm, ⟨34, _⟩ => ⟨S64x2048x64x4, .i32⟩
  | .hbm, ⟨35, _⟩ => ⟨S64x2048x64x4, .i32⟩
  | .hbm, ⟨36, _⟩ => ⟨S_, .i32⟩
  | .hbm, ⟨37, _⟩ => ⟨S64x2048x64x4, .i32⟩
  | .hbm, ⟨38, _⟩ => ⟨S64x2048x64x4, .i1⟩
  | .hbm, ⟨39, _⟩ => ⟨S_, .i32⟩
  | .hbm, ⟨40, _⟩ => ⟨S64x2048x64x4, .i32⟩
  | .hbm, ⟨41, _⟩ => ⟨S64x2048x64x4, .i32⟩
  | .hbm, ⟨42, _⟩ => ⟨S64x2048x64x4, .i32⟩
  | .hbm, ⟨43, _⟩ => ⟨S64x2048x64x4x1, .i32⟩
  | .hbm, ⟨44, _⟩ => ⟨S1, .i32⟩
  | .hbm, ⟨45, _⟩ => ⟨S_, .i32⟩
  | .hbm, ⟨46, _⟩ => ⟨S64x2048x64x4x1, .i32⟩
  | .hbm, ⟨47, _⟩ => ⟨S64x2048x64x4x1, .i1⟩
  | .hbm, ⟨48, _⟩ => ⟨S1x1x1x1x1, .i32⟩
  | .hbm, ⟨49, _⟩ => ⟨S64x2048x64x4x1, .i32⟩
  | .hbm, ⟨50, _⟩ => ⟨S64x2048x64x4x1, .i1⟩
  | .hbm, ⟨51, _⟩ => ⟨S64x2048x64x4x1, .i1⟩
  | .hbm, ⟨52, _⟩ => ⟨S_, .i1⟩
  | .hbm, ⟨53, _⟩ => ⟨S64x2048x64x4, .i1⟩
  | .hbm, ⟨54, _⟩ => ⟨S64x2048x64x4, .f32⟩
  | .hbm, ⟨55, _⟩ => ⟨S_, .f32⟩
  | .hbm, ⟨56, _⟩ => ⟨S64x2048x64x4, .f32⟩
  | .hbm, ⟨57, _⟩ => ⟨S64x2048x64x4, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S64x2048x64x4, .i32⟩
  | .hbm, ⟨62, _⟩ => ⟨S64x2048x64x4, .i32⟩
  | .hbm, ⟨63, _⟩ => ⟨S_, .i32⟩
  | .hbm, ⟨64, _⟩ => ⟨S64x2048x64x4, .i32⟩
  | .hbm, ⟨65, _⟩ => ⟨S64x2048x64x4, .i32⟩
  | .hbm, ⟨66, _⟩ => ⟨S_, .i32⟩
  | .hbm, ⟨67, _⟩ => ⟨S64x2048x64x4, .i32⟩
  | .hbm, ⟨68, _⟩ => ⟨S64x2048x64x4, .i1⟩
  | .hbm, ⟨69, _⟩ => ⟨S_, .i32⟩
  | .hbm, ⟨70, _⟩ => ⟨S64x2048x64x4, .i32⟩
  | .hbm, ⟨71, _⟩ => ⟨S64x2048x64x4, .i32⟩
  | .hbm, ⟨72, _⟩ => ⟨S64x2048x64x4, .i32⟩
  | .hbm, ⟨73, _⟩ => ⟨S64x2048x64x4x1, .i32⟩
  | .hbm, ⟨74, _⟩ => ⟨S1, .i32⟩
  | .hbm, ⟨75, _⟩ => ⟨S_, .i32⟩
  | .hbm, ⟨76, _⟩ => ⟨S64x2048x64x4x1, .i32⟩
  | .hbm, ⟨77, _⟩ => ⟨S64x2048x64x4x1, .i1⟩
  | .hbm, ⟨78, _⟩ => ⟨S1x1x1x1x1, .i32⟩
  | .hbm, ⟨79, _⟩ => ⟨S64x2048x64x4x1, .i32⟩
  | .hbm, ⟨80, _⟩ => ⟨S64x2048x64x4x1, .i1⟩
  | .hbm, ⟨81, _⟩ => ⟨S64x2048x64x4x1, .i1⟩
  | .hbm, ⟨82, _⟩ => ⟨S_, .i1⟩
  | .hbm, ⟨83, _⟩ => ⟨S64x2048x64x4, .i1⟩
  | .hbm, ⟨84, _⟩ => ⟨S64x2048x64x4, .f32⟩
  | .hbm, ⟨85, _⟩ => ⟨S_, .f32⟩
  | .hbm, ⟨86, _⟩ => ⟨S64x2048x64x4, .f32⟩
  | .hbm, ⟨87, _⟩ => ⟨S64x2048x64x4, .f32⟩
  | .hbm, ⟨88, _⟩ => ⟨S64x2048x64x4, .i32⟩
  | .hbm, ⟨89, _⟩ => ⟨S_, .i32⟩
  | .hbm, ⟨90, _⟩ => ⟨S64x2048x64x4, .i32⟩
  | .hbm, ⟨91, _⟩ => ⟨S64x2048x64x4, .i32⟩
  | .hbm, ⟨92, _⟩ => ⟨S64x2048x64x4, .i32⟩
  | .hbm, ⟨93, _⟩ => ⟨S64x2048x64x4, .f32⟩
  | .hbm, ⟨94, _⟩ => ⟨S64x2048x64x4, .f32⟩
  | .hbm, ⟨95, _⟩ => ⟨S64x2048x64x4, .f32⟩
  | .hbm, ⟨96, _⟩ => ⟨S64x2048x64x4, .f32⟩
  | .hbm, ⟨97, _⟩ => ⟨S64x2048x64x4, .f32⟩
  | .hbm, ⟨98, _⟩ => ⟨S64x2048x64x4, .f32⟩
  | .hbm, ⟨99, _⟩ => ⟨S64x2048x64x4, .i1⟩
  | .hbm, ⟨100, _⟩ => ⟨S_, .f32⟩
  | .hbm, ⟨101, _⟩ => ⟨S64x2048x64x4, .f32⟩
  | .hbm, ⟨102, _⟩ => ⟨S64x2048x64x4, .f32⟩
  | .hbm, ⟨103, _⟩ => ⟨S64x2048x64x4, .f32⟩
  | .hbm, ⟨104, _⟩ => ⟨S64x2048x64x4, .f32⟩
  | .hbm, ⟨105, _⟩ => ⟨S64x2048x64x4, .f32⟩
  | _, _ => ⟨S64x2048x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_call1_c : Ref sig .tc := ⟨.hbm, 12, rfl⟩
abbrev main_call1_v0 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_call2_v1 : Ref sig .tc := ⟨.hbm, 17, rfl⟩
abbrev main_v7 : Ref sig .tc := ⟨.hbm, 18, rfl⟩
abbrev main_call3_c : Ref sig .tc := ⟨.hbm, 19, rfl⟩
abbrev main_call3_v0 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_c_5 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v13 : Ref sig .tc := ⟨.hbm, 35, rfl⟩
abbrev main_call5_c : Ref sig .tc := ⟨.hbm, 36, rfl⟩
abbrev main_call5_v0 : Ref sig .tc := ⟨.hbm, 37, rfl⟩
abbrev main_call5_v1 : Ref sig .tc := ⟨.hbm, 38, rfl⟩
abbrev main_call5_c_0 : Ref sig .tc := ⟨.hbm, 39, rfl⟩
abbrev main_call5_v2 : Ref sig .tc := ⟨.hbm, 40, rfl⟩
abbrev main_call5_v3 : Ref sig .tc := ⟨.hbm, 41, rfl⟩
abbrev main_call5_v4 : Ref sig .tc := ⟨.hbm, 42, rfl⟩
abbrev main_call5_v5 : Ref sig .tc := ⟨.hbm, 43, rfl⟩
abbrev main_call5_c_1 : Ref sig .tc := ⟨.hbm, 44, rfl⟩
abbrev main_call5_c_2 : Ref sig .tc := ⟨.hbm, 45, rfl⟩
abbrev main_call5_v6 : Ref sig .tc := ⟨.hbm, 46, rfl⟩
abbrev main_call5_v7 : Ref sig .tc := ⟨.hbm, 47, rfl⟩
abbrev main_call5_v8 : Ref sig .tc := ⟨.hbm, 48, rfl⟩
abbrev main_call5_v9 : Ref sig .tc := ⟨.hbm, 49, rfl⟩
abbrev main_call5_v10 : Ref sig .tc := ⟨.hbm, 50, rfl⟩
abbrev main_call5_v11 : Ref sig .tc := ⟨.hbm, 51, rfl⟩
abbrev main_call5_c_3 : Ref sig .tc := ⟨.hbm, 52, rfl⟩
abbrev main_call5_v12 : Ref sig .tc := ⟨.hbm, 53, rfl⟩
abbrev main_call5_v13 : Ref sig .tc := ⟨.hbm, 54, rfl⟩
abbrev main_call5_cst : Ref sig .tc := ⟨.hbm, 55, rfl⟩
abbrev main_call5_v14 : Ref sig .tc := ⟨.hbm, 56, rfl⟩
abbrev main_v14 : Ref sig .tc := ⟨.hbm, 57, rfl⟩
abbrev main_c_6 : Ref sig .tc := ⟨.hbm, 58, rfl⟩
abbrev main_c_7 : Ref sig .tc := ⟨.hbm, 59, rfl⟩
abbrev main_call6_v0 : Ref sig .tc := ⟨.hbm, 60, rfl⟩
abbrev main_call6_v1 : Ref sig .tc := ⟨.hbm, 61, rfl⟩
abbrev main_call6_v2 : Ref sig .tc := ⟨.hbm, 62, rfl⟩
abbrev main_call6_v3 : Ref sig .tc := ⟨.hbm, 63, rfl⟩
abbrev main_call6_v4 : Ref sig .tc := ⟨.hbm, 64, rfl⟩
abbrev main_v15 : Ref sig .tc := ⟨.hbm, 65, rfl⟩
abbrev main_call7_c : Ref sig .tc := ⟨.hbm, 66, rfl⟩
abbrev main_call7_v0 : Ref sig .tc := ⟨.hbm, 67, rfl⟩
abbrev main_call7_v1 : Ref sig .tc := ⟨.hbm, 68, rfl⟩
abbrev main_call7_c_0 : Ref sig .tc := ⟨.hbm, 69, rfl⟩
abbrev main_call7_v2 : Ref sig .tc := ⟨.hbm, 70, rfl⟩
abbrev main_call7_v3 : Ref sig .tc := ⟨.hbm, 71, rfl⟩
abbrev main_call7_v4 : Ref sig .tc := ⟨.hbm, 72, rfl⟩
abbrev main_call7_v5 : Ref sig .tc := ⟨.hbm, 73, rfl⟩
abbrev main_call7_c_1 : Ref sig .tc := ⟨.hbm, 74, rfl⟩
abbrev main_call7_c_2 : Ref sig .tc := ⟨.hbm, 75, rfl⟩
abbrev main_call7_v6 : Ref sig .tc := ⟨.hbm, 76, rfl⟩
abbrev main_call7_v7 : Ref sig .tc := ⟨.hbm, 77, rfl⟩
abbrev main_call7_v8 : Ref sig .tc := ⟨.hbm, 78, rfl⟩
abbrev main_call7_v9 : Ref sig .tc := ⟨.hbm, 79, rfl⟩
abbrev main_call7_v10 : Ref sig .tc := ⟨.hbm, 80, rfl⟩
abbrev main_call7_v11 : Ref sig .tc := ⟨.hbm, 81, rfl⟩
abbrev main_call7_c_3 : Ref sig .tc := ⟨.hbm, 82, rfl⟩
abbrev main_call7_v12 : Ref sig .tc := ⟨.hbm, 83, rfl⟩
abbrev main_call7_v13 : Ref sig .tc := ⟨.hbm, 84, rfl⟩
abbrev main_call7_cst : Ref sig .tc := ⟨.hbm, 85, rfl⟩
abbrev main_call7_v14 : Ref sig .tc := ⟨.hbm, 86, rfl⟩
abbrev main_v16 : Ref sig .tc := ⟨.hbm, 87, rfl⟩
abbrev main_v17 : Ref sig .tc := ⟨.hbm, 88, rfl⟩
abbrev main_c_8 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_cst : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩

abbrev nD : Nat := 1
abbrev τ : Topo := Topo.v7x

variable {F : FTy → Type} [FloatOps F]

class Facts₀ : Prop where
  bcast_S2048_S1x2048x1x1_1 : S2048.BroadcastsInDim S1x2048x1x1 (![1] : Fin 1 → Fin S1x2048x1x1.rank)
  bcast_S_S64x2048x64x4 : S_.BroadcastsInDim S64x2048x64x4 (![] : Fin 0 → Fin S64x2048x64x4.rank)
  bcast_S1x2048x1x1_S64x2048x64x4_0_1_2_3 : S1x2048x1x1.BroadcastsInDim S64x2048x64x4 (![0, 1, 2, 3] : Fin 4 → Fin S64x2048x64x4.rank)
  bcast_S_S_ : S_.BroadcastsInDim S_ (![] : Fin 0 → Fin S_.rank)
  reduceWindows_S64x2048x64x4_S64x2048x64x4_w1s1p0_0_w2048s1p2047_0_w1s1p0_0_w1s1p0_0 : S64x2048x64x4.ReduceWindows (![1, 2048, 1, 1] : Fin 4 → Nat) ![1, 1, 1, 1] ![0, 2047, 0, 0] ![0, 0, 0, 0] S64x2048x64x4
  h_S_ : 0 < S_.numel
  reduceWindows_S64x2048x64x4_S64x2048x64x4_w1s1p0_0_w2048s1p0_2047_w1s1p0_0_w1s1p0_0 : S64x2048x64x4.ReduceWindows (![1, 2048, 1, 1] : Fin 4 → Nat) ![1, 1, 1, 1] ![0, 0, 0, 0] ![0, 2047, 0, 0] S64x2048x64x4
  shapeCasts_S64x2048x64x4_S64x2048x64x4x1 : S64x2048x64x4.ShapeCasts S64x2048x64x4x1
  bcast_S_S64x2048x64x4x1 : S_.BroadcastsInDim S64x2048x64x4x1 (![] : Fin 0 → Fin S64x2048x64x4x1.rank)
  bcast_S1_S1x1x1x1x1_4 : S1.BroadcastsInDim S1x1x1x1x1 (![4] : Fin 1 → Fin S1x1x1x1x1.rank)
  bcast_S1x1x1x1x1_S64x2048x64x4x1_0_1_2_3_4 : S1x1x1x1x1.BroadcastsInDim S64x2048x64x4x1 (![0, 1, 2, 3, 4] : Fin 5 → Fin S64x2048x64x4x1.rank)
  reducesTo_S64x2048x64x4x1_S64x2048x64x4_d4 : S64x2048x64x4x1.ReducesTo [4] S64x2048x64x4
  gather_S64x2048x64x4_S64x2048x64x4x1_S64x2048x64x4_n_1_023_023_1_4_1111_wf : GatherDims.WF S64x2048x64x4 S64x2048x64x4x1 S64x2048x64x4 [] [1] [0, 2, 3] [1] [0, 2, 3] 4 ![1, 1, 1, 1]

variable [Facts₀]

def gather_S64x2048x64x4_S64x2048x64x4x1_S64x2048x64x4_n_1_023_023_1_4_1111 : GatherDims S64x2048x64x4 S64x2048x64x4x1 S64x2048x64x4 where
  offsetDims := []
  collapsedSliceDims := [1]
  operandBatchingDims := [0, 2, 3]
  startIndicesBatchingDims := [0, 2, 3]
  startIndexMap := [1]
  indexVectorDim := 4
  sliceSizes := ![1, 1, 1, 1]
  wf := gather_S64x2048x64x4_S64x2048x64x4x1_S64x2048x64x4_n_1_023_023_1_4_1111_wf

class Facts : Prop extends Facts₀ where

variable [Facts]
-- ==== Proof.Series.lean ====
/-
  A masked series and its interpolation, position by position.

  One series is a function of the time position `u < T` (here `T = 2048`): a mask word and a value.
  A position is OBSERVED when its mask word is not zero. The result at `t` is the value itself where
  `t` is observed; otherwise the straight line between the last observed position before `t` and the
  first one after it, the nearer end's value where only one side has an observed position, and zero
  where none has.  This module states that result once (`interp`), the two facts a doubling scan keeps
  while its window grows (`LastIn`, `FirstIn`, with the value carried beside the position,
  `Carries`), and the pointwise tail shared by every way of computing the two positions (`combine_eq`).
-/
import Idealize.ShloMosaic.PureOps.Ideal
import Mathlib.Order.Nat
import Mathlib.Data.Nat.Find

noncomputable section

namespace Cert.Interp

open Idealize.ShloMosaic

/-- The length of the time axis. -/
abbrev T : ℕ := 2048

/-- Position `u` of the series is observed: its mask word is not zero. -/
abbrev Obs (mask : ℕ → BitVec 32) (u : ℕ) : Prop := mask u ≠ 0#32

/-- The last observed position at or before `t`, or `-1` when there is none. -/
def lastObs (mask : ℕ → BitVec 32) (t : ℕ) : ℤ :=
  if ∃ u, u ≤ t ∧ Obs mask u then (Nat.findGreatest (Obs mask) t : ℤ) else -1

/-- The first observed position at or after `t` and before `T`, or `T` when there is none. -/
def firstObs (mask : ℕ → BitVec 32) (t : ℕ) : ℤ :=
  if h : ∃ u, u < T ∧ (t ≤ u ∧ Obs mask u) then (Nat.find h : ℤ) else T

/-- The interpolation weight as both programs compute it from the two position words: the distance
    from the last observed position over the distance between the two, the divisor kept at least one. -/
def weight (tw A B : BitVec 32) : EReal :=
  Ideal.div (((IntOp.subi tw A).toInt : ℝ) : EReal) (((IntOp.maxsi (IntOp.subi B A) 1#32).toInt : ℝ) : EReal)

/-- The interpolated series at position `t`. -/
def interp (mask : ℕ → BitVec 32) (x : ℕ → EReal) (t : ℕ) : EReal :=
  if Obs mask t then x t
  else if 0 ≤ lastObs mask t ∧ firstObs mask t < T then
    x (lastObs mask t).toNat + (x (firstObs mask t).toNat - x (lastObs mask t).toNat) *
      weight (BitVec.ofNat 32 t) (BitVec.ofInt 32 (lastObs mask t)) (BitVec.ofInt 32 (firstObs mask t))
  else if 0 ≤ lastObs mask t then x (lastObs mask t).toNat
  else if firstObs mask t < T then x (firstObs mask t).toNat
  else 0

/-! ## Reading the machine words -/

private theorem toInt_below : (4294967295#32 : BitVec 32).toInt = -1 := by decide

private theorem toInt_past : (2048#32 : BitVec 32).toInt = 2048 := by decide

/-- A position of the axis, written as a word, reads back as itself. -/
private theorem toInt_ofNat_small {t : ℕ} (ht : t < T) : (BitVec.ofNat 32 t).toInt = t := by
  have hT : T = 2048 := rfl
  have h1 : (BitVec.ofNat 32 t).toNat = t := by
    rw [BitVec.toNat_ofNat]; exact Nat.mod_eq_of_lt (by omega)
  rw [BitVec.toInt_eq_toNat_of_lt (by rw [h1]; omega), h1]

/-- A choice reads its condition as "the flag is set". -/
private theorem select_eq_ite {α : Type} (c : BitVec 1) (p q : α) :
    Scalar.select c p q = if c = 1#1 then p else q := rfl

/-- Choosing on "the mask word is not zero". -/
private theorem select_ne_zero {α : Type} (m : BitVec 32) (p q : α) :
    Scalar.select (IntOp.cmpi .ne m 0#32) p q = if m ≠ 0#32 then p else q := by
  unfold Scalar.select IntOp.cmpi
  by_cases h : m = 0#32
  · simp [h]
  · have hb : (m != 0#32) = true := bne_iff_ne.mpr h
    simp [hb, h]

/-- Choosing on a signed "greater than" is choosing on the integers' order. -/
private theorem select_sgt {α : Type} (a a2 : BitVec 32) (p q : α) :
    Scalar.select (IntOp.cmpi .sgt a2 a) p q = if a.toInt < a2.toInt then p else q := by
  by_cases h : a.toInt < a2.toInt <;> simp [Scalar.select, IntOp.cmpi, BitVec.slt_eq_decide, h]

private theorem select_slt {α : Type} (a a2 : BitVec 32) (p q : α) :
    Scalar.select (IntOp.cmpi .slt a2 a) p q = if a2.toInt < a.toInt then p else q := by
  by_cases h : a2.toInt < a.toInt <;> simp [Scalar.select, IntOp.cmpi, BitVec.slt_eq_decide, h]

/-! ## The two positions, characterised -/

private theorem lastObs_none {mask : ℕ → BitVec 32} {t : ℕ} (h : ∀ u, u ≤ t → ¬ Obs mask u) :
    lastObs mask t = -1 := by
  unfold lastObs
  rw [if_neg]
  rintro ⟨u, hu, ho⟩
  exact h u hu ho

private theorem lastObs_some {mask : ℕ → BitVec 32} {t u : ℕ} (hut : u ≤ t) (ho : Obs mask u)
    (hmax : ∀ u', u < u' → u' ≤ t → ¬ Obs mask u') : lastObs mask t = u := by
  unfold lastObs
  rw [if_pos ⟨u, hut, ho⟩]
  have : Nat.findGreatest (Obs mask) t = u := by
    rw [Nat.findGreatest_eq_iff]
    exact ⟨hut, fun _ => ho, fun n hn hnt => hmax n hn hnt⟩
  rw [this]

private theorem firstObs_none {mask : ℕ → BitVec 32} {t : ℕ} (h : ∀ u, t ≤ u → u < T → ¬ Obs mask u) :
    firstObs mask t = T := by
  unfold firstObs
  rw [dif_neg]
  rintro ⟨u, hu, htu, ho⟩
  exact h u htu hu ho

private theorem firstObs_some {mask : ℕ → BitVec 32} {t u : ℕ} (htu : t ≤ u) (huT : u < T) (ho : Obs mask u)
    (hmin : ∀ u', t ≤ u' → u' < u → ¬ Obs mask u') : firstObs mask t = u := by
  unfold firstObs
  have hex : ∃ u, u < T ∧ (t ≤ u ∧ Obs mask u) := ⟨u, huT, htu, ho⟩
  rw [dif_pos hex]
  have : Nat.find hex = u := by
    rw [Nat.find_eq_iff]
    exact ⟨⟨huT, htu, ho⟩, fun n hn hc => hmin n hc.2.1 hn hc.2.2⟩
  rw [this]

/-! ## What a doubling scan keeps -/

/-- The word `a` is the last observed position in the window `(t - s, t]`, or `-1` when the window holds none. -/
def LastIn (mask : ℕ → BitVec 32) (s t : ℕ) (a : BitVec 32) : Prop :=
  (a.toInt = -1 ∧ ∀ u, u ≤ t → t < u + s → ¬ Obs mask u) ∨
  (∃ u : ℕ, a.toInt = u ∧ u ≤ t ∧ t < u + s ∧ Obs mask u ∧ ∀ u', u < u' → u' ≤ t → ¬ Obs mask u')

/-- The word `a` is the first observed position in the window `[t, t + s)` cut at `T`, or `T` when it holds none. -/
def FirstIn (mask : ℕ → BitVec 32) (s t : ℕ) (a : BitVec 32) : Prop :=
  (a.toInt = T ∧ ∀ u, t ≤ u → u < t + s → u < T → ¬ Obs mask u) ∨
  (∃ u : ℕ, a.toInt = u ∧ t ≤ u ∧ u < t + s ∧ u < T ∧ Obs mask u ∧ ∀ u', t ≤ u' → u' < u → ¬ Obs mask u')

/-- The value `v` travels with the position word `a`: the series' value there when `a` is a position, zero when
    `a` is one of the two sentinels (`-1` below the axis, `T` past it). -/
def Carries (x : ℕ → EReal) (a : BitVec 32) (v : EReal) : Prop :=
  (∀ u : ℕ, u < T → a.toInt = u → v = x u) ∧ ((a.toInt < 0 ∨ (T : ℤ) ≤ a.toInt) → v = 0)

theorem carries_select {x : ℕ → EReal} {a a2 : BitVec 32} {v v2 : EReal} (c : BitVec 1)
    (h : Carries x a v) (h2 : Carries x a2 v2) : Carries x (Scalar.select c a2 a) (Scalar.select c v2 v) := by
  unfold Scalar.select
  by_cases hc : c = 1
  · rw [if_pos hc, if_pos hc]; exact h2
  · rw [if_neg hc, if_neg hc]; exact h

theorem carries_below (x : ℕ → EReal) : Carries x 4294967295#32 0 := by
  refine ⟨fun u _ h => ?_, fun _ => rfl⟩
  rw [toInt_below] at h
  omega

theorem carries_past (x : ℕ → EReal) : Carries x 2048#32 0 := by
  refine ⟨fun u hu h => ?_, fun _ => rfl⟩
  have hT : T = 2048 := rfl
  rw [toInt_past] at h
  omega

/-- Before any doubling step: the window is the position itself. -/
theorem lastIn_init (mask : ℕ → BitVec 32) {t : ℕ} (ht : t < T) :
    LastIn mask 1 t (Scalar.select (IntOp.cmpi .ne (mask t) 0#32) (BitVec.ofNat 32 t) 4294967295#32) := by
  rw [select_ne_zero]
  by_cases ho : mask t ≠ 0#32
  · rw [if_pos ho]
    exact Or.inr ⟨t, toInt_ofNat_small ht, le_refl t, by omega, ho, fun u' h1 h2 => by omega⟩
  · rw [if_neg ho]
    refine Or.inl ⟨toInt_below, fun u h1 h2 => ?_⟩
    have : u = t := by omega
    rw [this]; exact ho

theorem firstIn_init (mask : ℕ → BitVec 32) {t : ℕ} (ht : t < T) :
    FirstIn mask 1 t (Scalar.select (IntOp.cmpi .ne (mask t) 0#32) (BitVec.ofNat 32 t) 2048#32) := by
  rw [select_ne_zero]
  by_cases ho : mask t ≠ 0#32
  · rw [if_pos ho]
    exact Or.inr ⟨t, toInt_ofNat_small ht, le_refl t, by omega, ht, ho, fun u' h1 h2 => by omega⟩
  · rw [if_neg ho]
    refine Or.inl ⟨toInt_past, fun u h1 h2 _ => ?_⟩
    have : u = t := by omega
    rw [this]; exact ho

/-- The value at a position travels with that position's word. -/
private theorem carries_at (x : ℕ → EReal) {t : ℕ} (ht : t < T) : Carries x (BitVec.ofNat 32 t) (x t) := by
  have hT : T = 2048 := rfl
  have e := toInt_ofNat_small ht
  refine ⟨fun u _ h => ?_, fun h => ?_⟩
  · have : t = u := by omega
    rw [this]
  · exfalso; omega

theorem carries_init_below (mask : ℕ → BitVec 32) (x : ℕ → EReal) {t : ℕ} (ht : t < T) :
    Carries x (Scalar.select (IntOp.cmpi .ne (mask t) 0#32) (BitVec.ofNat 32 t) 4294967295#32)
      (Scalar.select (IntOp.cmpi .ne (mask t) 0#32) (x t) 0) := by
  exact carries_select _ (carries_below x) (carries_at x ht)

theorem carries_init_past (mask : ℕ → BitVec 32) (x : ℕ → EReal) {t : ℕ} (ht : t < T) :
    Carries x (Scalar.select (IntOp.cmpi .ne (mask t) 0#32) (BitVec.ofNat 32 t) 2048#32)
      (Scalar.select (IntOp.cmpi .ne (mask t) 0#32) (x t) 0) := by
  exact carries_select _ (carries_past x) (carries_at x ht)

/-- One doubling step looking back: the window of width `s` ending at `t`, joined with the one ending `s` earlier
    (the sentinel where there is no such position), is the window of width `2 s`; the later of the two finds wins. -/
theorem lastIn_step {mask : ℕ → BitVec 32} {s t : ℕ} {a a2 : BitVec 32} (hs : 0 < s) (ht : t < T)
    (h : LastIn mask s t a) (h2 : if t < s then a2 = 4294967295#32 else LastIn mask s (t - s) a2) :
    LastIn mask (2 * s) t (Scalar.select (IntOp.cmpi .sgt a2 a) a2 a) := by
  rw [select_sgt]
  -- what the word read `s` positions earlier says, in one shape for both kinds of position
  have key : (a2.toInt = -1 ∧ (s ≤ t → ∀ u, u ≤ t - s → t - s < u + s → ¬ Obs mask u)) ∨
      (s ≤ t ∧ ∃ u : ℕ, a2.toInt = u ∧ u ≤ t - s ∧ t - s < u + s ∧ Obs mask u ∧
        ∀ u', u < u' → u' ≤ t - s → ¬ Obs mask u') := by
    by_cases hts : t < s
    · rw [if_pos hts] at h2
      exact Or.inl ⟨by rw [h2]; exact toInt_below, fun hst => absurd hst (by omega)⟩
    · rw [if_neg hts] at h2
      rcases h2 with ⟨e, hn⟩ | ⟨u, hu⟩
      · exact Or.inl ⟨e, fun _ => hn⟩
      · exact Or.inr ⟨by omega, u, hu⟩
  rcases h with ⟨ea, hna⟩ | ⟨u, eu, hut, htu, hou, hmax⟩
  · rcases key with ⟨e2, hn2⟩ | ⟨hst, u2, e2, h2a, h2b, h2o, h2max⟩
    · -- neither window holds an observed position
      have hlt : ¬ (a.toInt < a2.toInt) := by omega
      rw [if_neg hlt]
      refine Or.inl ⟨ea, fun u h1 h3 => ?_⟩
      by_cases hc : t < u + s
      · exact hna u h1 hc
      · exact hn2 (by omega) u (by omega) (by omega)
    · -- only the earlier window does
      have hlt : a.toInt < a2.toInt := by omega
      rw [if_pos hlt]
      refine Or.inr ⟨u2, e2, by omega, by omega, h2o, fun u' h1 h3 => ?_⟩
      by_cases hc : t < u' + s
      · exact hna u' h3 hc
      · exact h2max u' h1 (by omega)
  · -- the later window does: its find is later than anything the earlier window can offer
    have hlt : ¬ (a.toInt < a2.toInt) := by
      rcases key with ⟨e2, _⟩ | ⟨hst, u2, e2, h2a, _⟩ <;> omega
    rw [if_neg hlt]
    exact Or.inr ⟨u, eu, hut, by omega, hou, hmax⟩

/-- One doubling step looking ahead. -/
theorem firstIn_step {mask : ℕ → BitVec 32} {s t : ℕ} {a a2 : BitVec 32} (hs : 0 < s) (ht : t < T)
    (h : FirstIn mask s t a) (h2 : if t + s < T then FirstIn mask s (t + s) a2 else a2 = 2048#32) :
    FirstIn mask (2 * s) t (Scalar.select (IntOp.cmpi .slt a2 a) a2 a) := by
  rw [select_slt]
  have hT : T = 2048 := rfl
  -- what the word read `s` positions later says, in one shape for both kinds of position
  have key : (a2.toInt = T ∧ (t + s < T → ∀ u, t + s ≤ u → u < t + s + s → u < T → ¬ Obs mask u)) ∨
      (t + s < T ∧ ∃ u : ℕ, a2.toInt = u ∧ t + s ≤ u ∧ u < t + s + s ∧ u < T ∧ Obs mask u ∧
        ∀ u', t + s ≤ u' → u' < u → ¬ Obs mask u') := by
    by_cases hts : t + s < T
    · rw [if_pos hts] at h2
      rcases h2 with ⟨e, hn⟩ | ⟨u, hu⟩
      · exact Or.inl ⟨e, fun _ => hn⟩
      · exact Or.inr ⟨hts, u, hu⟩
    · rw [if_neg hts] at h2
      exact Or.inl ⟨by rw [h2, toInt_past]; rfl, fun hst => absurd hst hts⟩
  rcases h with ⟨ea, hna⟩ | ⟨u, eu, htu, hut, huT, hou, hmin⟩
  · rcases key with ⟨e2, hn2⟩ | ⟨hst, u2, e2, h2a, h2b, h2T, h2o, h2min⟩
    · -- neither window holds an observed position
      have hlt : ¬ (a2.toInt < a.toInt) := by omega
      rw [if_neg hlt]
      refine Or.inl ⟨ea, fun u h1 h3 h4 => ?_⟩
      by_cases hc : u < t + s
      · exact hna u h1 hc h4
      · exact hn2 (by omega) u (by omega) (by omega) h4
    · -- only the later window does
      have hlt : a2.toInt < a.toInt := by omega
      rw [if_pos hlt]
      refine Or.inr ⟨u2, e2, by omega, by omega, h2T, h2o, fun u' h1 h3 => ?_⟩
      by_cases hc : u' < t + s
      · exact hna u' h1 hc (by omega)
      · exact h2min u' (by omega) h3
  · -- the earlier window does: its find is earlier than anything the later window can offer
    have hlt : ¬ (a2.toInt < a.toInt) := by
      rcases key with ⟨e2, _⟩ | ⟨hst, u2, e2, h2a, _⟩ <;> omega
    rw [if_neg hlt]
    exact Or.inr ⟨u, eu, htu, by omega, huT, hou, hmin⟩

/-- Once the window reaches back to the start, the word is the last observed position. -/
theorem lastIn_final {mask : ℕ → BitVec 32} {s t : ℕ} {a : BitVec 32} (h : LastIn mask s t a) (hs : t < s) (ht : t < T) :
    a.toInt = lastObs mask t := by
  rcases h with ⟨ea, hna⟩ | ⟨u, eu, hut, _, hou, hmax⟩
  · rw [ea, lastObs_none (fun u hu => hna u hu (by omega))]
  · rw [eu, lastObs_some hut hou hmax]

theorem firstIn_final {mask : ℕ → BitVec 32} {s t : ℕ} {a : BitVec 32} (h : FirstIn mask s t a) (hs : T ≤ t + s) (ht : t < T) :
    a.toInt = firstObs mask t := by
  rcases h with ⟨ea, hna⟩ | ⟨u, eu, htu, _, huT, hou, hmin⟩
  · rw [ea, firstObs_none (fun u hu hT => hna u hu (by omega) hT)]
  · rw [eu, firstObs_some htu huT hou hmin]

theorem lastObs_range (mask : ℕ → BitVec 32) (t : ℕ) : -1 ≤ lastObs mask t ∧ lastObs mask t ≤ t := by
  unfold lastObs
  by_cases h : ∃ u, u ≤ t ∧ Obs mask u
  · rw [if_pos h]
    have := Nat.findGreatest_le (P := Obs mask) t
    omega
  · rw [if_neg h]
    omega

theorem firstObs_range (mask : ℕ → BitVec 32) {t : ℕ} (ht : t < T) : (t : ℤ) ≤ firstObs mask t ∧ firstObs mask t ≤ T := by
  have hT : T = 2048 := rfl
  unfold firstObs
  by_cases h : ∃ u, u < T ∧ (t ≤ u ∧ Obs mask u)
  · rw [dif_pos h]
    have := Nat.find_spec h
    omega
  · rw [dif_neg h]
    omega

/-- The word the maximum of a window produces is the last observed position: it bounds every marked position of
    the window `[0, t]` (an unobserved one is marked `-1`) and is one of the marks. -/
theorem lastObs_of_max {mask : ℕ → BitVec 32} {t : ℕ} (ht : t < T) {R : BitVec 32}
    (hub : ∀ u, u ≤ t → (if Obs mask u then (u : ℤ) else -1) ≤ R.toInt)
    (hmem : ∃ u, u ≤ t ∧ R.toInt = (if Obs mask u then (u : ℤ) else -1)) : R.toInt = lastObs mask t := by
  obtain ⟨u0, hu0, e0⟩ := hmem
  by_cases ho : Obs mask u0
  · -- the maximum is an observed position, and no later one is observed
    rw [if_pos ho] at e0
    rw [e0, lastObs_some hu0 ho]
    intro u' h1 h2 ho'
    have := hub u' h2
    rw [if_pos ho'] at this
    omega
  · -- the maximum is the mark of an unobserved position: nothing in the window is observed
    rw [if_neg ho] at e0
    rw [e0, lastObs_none]
    intro u hu ho'
    have := hub u hu
    rw [if_pos ho'] at this
    omega

/-- The same for the minimum of the window `[t, T)`, an unobserved position marked `T`. -/
theorem firstObs_of_min {mask : ℕ → BitVec 32} {t : ℕ} (ht : t < T) {R : BitVec 32}
    (hlb : ∀ u, t ≤ u → u < T → R.toInt ≤ (if Obs mask u then (u : ℤ) else T))
    (hmem : ∃ u, t ≤ u ∧ u < T ∧ R.toInt = (if Obs mask u then (u : ℤ) else T)) : R.toInt = firstObs mask t := by
  have hT : T = 2048 := rfl
  obtain ⟨u0, hu0, hu0T, e0⟩ := hmem
  by_cases ho : Obs mask u0
  · rw [if_pos ho] at e0
    rw [e0, firstObs_some hu0 hu0T ho]
    intro u' h1 h2 ho'
    have := hlb u' h1 (by omega)
    rw [if_pos ho'] at this
    omega
  · rw [if_neg ho] at e0
    rw [e0, firstObs_none]
    intro u hu huT ho'
    have := hlb u hu huT
    rw [if_pos ho'] at this
    omega

/-! ## The pointwise tail -/

/-- From the two position words and the two values beside them to the result: whatever the second values are where
    their side has no observed position, the choice never reads them. -/
theorem combine_eq (mask : ℕ → BitVec 32) (x : ℕ → EReal) {t : ℕ} (ht : t < T) {A B : BitVec 32} {pv nv z : EReal}
    {hp hn : BitVec 1}
    (hA : A.toInt = lastObs mask t) (hB : B.toInt = firstObs mask t)
    (hpv : 0 ≤ lastObs mask t → pv = x (lastObs mask t).toNat)
    (hnv : firstObs mask t < T → nv = x (firstObs mask t).toNat)
    (hhp : hp = 1#1 ↔ 0 ≤ lastObs mask t) (hhn : hn = 1#1 ↔ firstObs mask t < T) (hz : z = 0) :
    Scalar.select (IntOp.cmpi .ne (mask t) 0#32) (x t)
      (Scalar.select (IntOp.andi hp hn) (pv + (nv - pv) * weight (BitVec.ofNat 32 t) A B)
        (Scalar.select hp pv (Scalar.select hn nv z))) = interp mask x t := by
  rw [select_ne_zero]
  unfold interp
  by_cases ho : Obs mask t
  · rw [if_pos ho, if_pos ho]
  · rw [if_neg ho, if_neg ho]
    -- the two words are the two positions
    have hAeq : BitVec.ofInt 32 (lastObs mask t) = A := by rw [← hA]; exact BitVec.ofInt_toInt
    have hBeq : BitVec.ofInt 32 (firstObs mask t) = B := by rw [← hB]; exact BitVec.ofInt_toInt
    rw [hAeq, hBeq]
    -- both flags are set exactly when their conjunction is
    have hand : IntOp.andi hp hn = 1#1 ↔ (hp = 1#1 ∧ hn = 1#1) := by
      unfold IntOp.andi
      rcases BitVec.eq_zero_or_eq_one hp with e | e <;>
        rcases BitVec.eq_zero_or_eq_one hn with e' | e' <;> rw [e, e'] <;> decide
    simp only [select_eq_ite]
    by_cases h1 : 0 ≤ lastObs mask t <;> by_cases h2 : firstObs mask t < T
    · rw [if_pos (hand.mpr ⟨hhp.mpr h1, hhn.mpr h2⟩), if_pos ⟨h1, h2⟩, hpv h1, hnv h2]
    · have hn1 : ¬ hn = 1#1 := fun e => h2 (hhn.mp e)
      rw [if_neg (fun e => hn1 (hand.mp e).2), if_pos (hhp.mpr h1), if_neg (fun e => h2 e.2), if_pos h1, hpv h1]
    · have hp1 : ¬ hp = 1#1 := fun e => h1 (hhp.mp e)
      rw [if_neg (fun e => hp1 (hand.mp e).1), if_neg hp1, if_pos (hhn.mpr h2), if_neg (fun e => h1 e.1),
        if_neg h1, if_pos h2, hnv h2]
    · have hp1 : ¬ hp = 1#1 := fun e => h1 (hhp.mp e)
      have hn1 : ¬ hn = 1#1 := fun e => h2 (hhn.mp e)
      rw [if_neg (fun e => hp1 (hand.mp e).1), if_neg hp1, if_neg hn1, if_neg (fun e => h1 e.1),
        if_neg h1, if_neg h2, hz]

end Cert.Interp

end
-- ==== Proof.Sweep.lean ====
/-
  One step of a doubling scan on a block of series, as the kernel body spells it.

  A block holds `2 × 128` series of length `T = 2048` along its middle axis.  A step with shift `s` lays the
  block beside itself moved `s` positions along that axis — the `s` positions with nothing to read filled with a
  sentinel — and keeps, position by position, the better of the two position words (the later one looking back,
  the earlier one looking ahead) together with the value beside it.  Read at a position, a step is
  `Cert.Interp.lastIn_step` / `firstIn_step` on each of the block's series.
-/
import proofs.«414883_j54760833024018_3_alg».proof.Proof.Series
import Idealize.ShloMosaic.Lib.ValueIdx
import Idealize.ShloMosaic.Lib.Pipeline.Value
import Idealize.ShloMosaic.PureOps.Ideal.Laws

noncomputable section

namespace Cert.Interp

open Idealize.ShloMosaic Idealize.ShloMosaic.ValueIdx

/-- A block with `n` positions on the time axis. -/
abbrev Sh (n : ℕ) : Shape := ⟨3, ![2, n, 128]⟩

/-- Series `(b, ·, k)` of a block, as a function of the position (`z` past the axis, never read). -/
def colB {α : Type} (z : α) (a : (Sh 2048).Idx → α) (b : Fin 2) (k : Fin 128) : ℕ → α :=
  fun u => if h : u < 2048 then a (ix3 b ⟨u, h⟩ k) else z

/-- The block moved `s` positions LATER: position `t` reads position `t - s`, the first `s` positions the fill. -/
def shiftLater {α : Type} (s r : ℕ) (hsl : (Sh 2048).Slices ![0, 0, 0] (Sh r))
    (hc : Shape.Concatenates [Sh s, Sh r] (Sh 2048) 1) (fill : α) (v : (Sh 2048).Idx → α) : (Sh 2048).Idx → α :=
  concatenate (Sh 2048) 1 [⟨Sh s, broadcast (Sh s) fill⟩, ⟨Sh r, extractStridedSlice (Sh r) ![0, 0, 0] v hsl⟩] hc

/-- The block moved `s` positions EARLIER: position `t` reads position `t + s`, the last `s` positions the fill. -/
def shiftEarlier {α : Type} (s r : ℕ) (hsl : (Sh 2048).Slices ![0, s, 0] (Sh r))
    (hc : Shape.Concatenates [Sh r, Sh s] (Sh 2048) 1) (fill : α) (v : (Sh 2048).Idx → α) : (Sh 2048).Idx → α :=
  concatenate (Sh 2048) 1 [⟨Sh r, extractStridedSlice (Sh r) ![0, s, 0] v hsl⟩, ⟨Sh s, broadcast (Sh s) fill⟩] hc

theorem shiftLater_apply {α : Type} (s r : ℕ) (hsr : s + r = 2048) (hsl : (Sh 2048).Slices ![0, 0, 0] (Sh r))
    (hc : Shape.Concatenates [Sh s, Sh r] (Sh 2048) 1) (fill : α) (v : (Sh 2048).Idx → α)
    (b : Fin 2) (t : Fin 2048) (k : Fin 128) :
    shiftLater s r hsl hc fill v (ix3 b t k) = if h : t.val < s then fill else v (ix3 b ⟨t.val - s, by omega⟩ k) := by
  unfold shiftLater
  by_cases h : t.val < s
  · rw [dif_pos h]
    refine (concatenate_pair_apply_left (t := Sh 2048) (s₁ := Sh s) (s₂ := Sh r) (1 : Fin 3) (broadcast (Sh s) fill)
      (extractStridedSlice (Sh r) ![0, 0, 0] v hsl) hc (ix3 b t k) rfl (ix3 b ⟨t.val, h⟩ k) ?_).trans rfl
    intro a
    match a with
    | ⟨0, _⟩ => rfl
    | ⟨1, _⟩ => rfl
    | ⟨2, _⟩ => rfl
  · rw [dif_neg h]
    have hts : t.val - s < r := by have := t.isLt; omega
    refine (concatenate_pair_apply_right (t := Sh 2048) (s₁ := Sh s) (s₂ := Sh r) (1 : Fin 3) (broadcast (Sh s) fill)
      (extractStridedSlice (Sh r) ![0, 0, 0] v hsl) hc (ix3 b t k) rfl rfl (ix3 b ⟨t.val - s, hts⟩ k) ?_ ?_).trans ?_
    · intro a ha
      match a, ha with
      | ⟨0, _⟩, _ => rfl
      | ⟨1, _⟩, ha => exact absurd rfl ha
      | ⟨2, _⟩, _ => rfl
    · show t.val - s + s = t.val
      omega
    · refine extractStridedSlice_apply _ v hsl _ (ix3 b ⟨t.val - s, by omega⟩ k) ?_
      intro a
      match a with
      | ⟨0, _⟩ => show b.val = 0 + b.val; omega
      | ⟨1, _⟩ => show t.val - s = 0 + (t.val - s); omega
      | ⟨2, _⟩ => show k.val = 0 + k.val; omega

theorem shiftEarlier_apply {α : Type} (s r : ℕ) (hsr : s + r = 2048) (hsl : (Sh 2048).Slices ![0, s, 0] (Sh r))
    (hc : Shape.Concatenates [Sh r, Sh s] (Sh 2048) 1) (fill : α) (v : (Sh 2048).Idx → α)
    (b : Fin 2) (t : Fin 2048) (k : Fin 128) :
    shiftEarlier s r hsl hc fill v (ix3 b t k) = if h : t.val + s < 2048 then v (ix3 b ⟨t.val + s, h⟩ k) else fill := by
  unfold shiftEarlier
  by_cases h : t.val + s < 2048
  · rw [dif_pos h]
    have htr : t.val < r := by omega
    refine (concatenate_pair_apply_left (t := Sh 2048) (s₁ := Sh r) (s₂ := Sh s) (1 : Fin 3)
      (extractStridedSlice (Sh r) ![0, s, 0] v hsl) (broadcast (Sh s) fill) hc (ix3 b t k) rfl (ix3 b ⟨t.val, htr⟩ k) ?_).trans ?_
    · intro a
      match a with
      | ⟨0, _⟩ => rfl
      | ⟨1, _⟩ => rfl
      | ⟨2, _⟩ => rfl
    · refine extractStridedSlice_apply _ v hsl _ (ix3 b ⟨t.val + s, h⟩ k) ?_
      intro a
      match a with
      | ⟨0, _⟩ => show b.val = 0 + b.val; omega
      | ⟨1, _⟩ => show t.val + s = s + t.val; omega
      | ⟨2, _⟩ => show k.val = 0 + k.val; omega
  · rw [dif_neg h]
    have hts : t.val - r < s := by have := t.isLt; omega
    refine (concatenate_pair_apply_right (t := Sh 2048) (s₁ := Sh r) (s₂ := Sh s) (1 : Fin 3)
      (extractStridedSlice (Sh r) ![0, s, 0] v hsl) (broadcast (Sh s) fill) hc (ix3 b t k) rfl rfl (ix3 b ⟨t.val - r, hts⟩ k) ?_ ?_).trans rfl
    · intro a ha
      match a, ha with
      | ⟨0, _⟩, _ => rfl
      | ⟨1, _⟩, ha => exact absurd rfl ha
      | ⟨2, _⟩, _ => rfl
    · show t.val - r + r = t.val
      omega

/-! ## The steps -/

section
variable {F : FTy → Type} [FloatOps F]

/-- Looking back, the position words: keep the later of the word here and the word `s` positions earlier. -/
def backI (s r : ℕ) (hsl : (Sh 2048).Slices ![0, 0, 0] (Sh r)) (hc : Shape.Concatenates [Sh s, Sh r] (Sh 2048) 1)
    (a : IVec (Sh 2048) 32) : IVec (Sh 2048) 32 :=
  select (cmpi .sgt (shiftLater s r hsl hc 4294967295#32 a) a) (shiftLater s r hsl hc 4294967295#32 a) a

/-- Looking back, the values: the value beside the word that was kept. -/
def backV (s r : ℕ) (hsl : (Sh 2048).Slices ![0, 0, 0] (Sh r)) (hc : Shape.Concatenates [Sh s, Sh r] (Sh 2048) 1)
    (a : IVec (Sh 2048) 32) (v : FVec F (Sh 2048) .f32) : FVec F (Sh 2048) .f32 :=
  select (cmpi .sgt (shiftLater s r hsl hc 4294967295#32 a) a)
    (shiftLater s r hsl hc (Scalar.ofBits (F := F) .f32 0x00000000#32) v) v

/-- Looking ahead, the position words: keep the earlier of the word here and the word `s` positions later. -/
def aheadI (s r : ℕ) (hsl : (Sh 2048).Slices ![0, s, 0] (Sh r)) (hc : Shape.Concatenates [Sh r, Sh s] (Sh 2048) 1)
    (a : IVec (Sh 2048) 32) : IVec (Sh 2048) 32 :=
  select (cmpi .slt (shiftEarlier s r hsl hc 2048#32 a) a) (shiftEarlier s r hsl hc 2048#32 a) a

/-- Looking ahead, the values. -/
def aheadV (s r : ℕ) (hsl : (Sh 2048).Slices ![0, s, 0] (Sh r)) (hc : Shape.Concatenates [Sh r, Sh s] (Sh 2048) 1)
    (a : IVec (Sh 2048) 32) (v : FVec F (Sh 2048) .f32) : FVec F (Sh 2048) .f32 :=
  select (cmpi .slt (shiftEarlier s r hsl hc 2048#32 a) a)
    (shiftEarlier s r hsl hc (Scalar.ofBits (F := F) .f32 0x00000000#32) v) v

end

/-! ## What a step keeps, on every series of the block (at the ideal instance) -/

/-- Every position word of the block is the last observed position of its series within the window of width `s`,
    and the value beside it is the series' value there. -/
def BackOK (mask : IVec (Sh 2048) 32) (x : FVec Ideal (Sh 2048) .f32) (s : ℕ)
    (a : IVec (Sh 2048) 32) (v : FVec Ideal (Sh 2048) .f32) : Prop :=
  ∀ (b : Fin 2) (t : Fin 2048) (k : Fin 128),
    LastIn (colB 0#32 mask b k) s t.val (a (ix3 b t k)) ∧ Carries (colB (0 : EReal) x b k) (a (ix3 b t k)) (v (ix3 b t k))

/-- The same looking ahead. -/
def AheadOK (mask : IVec (Sh 2048) 32) (x : FVec Ideal (Sh 2048) .f32) (s : ℕ)
    (a : IVec (Sh 2048) 32) (v : FVec Ideal (Sh 2048) .f32) : Prop :=
  ∀ (b : Fin 2) (t : Fin 2048) (k : Fin 128),
    FirstIn (colB 0#32 mask b k) s t.val (a (ix3 b t k)) ∧ Carries (colB (0 : EReal) x b k) (a (ix3 b t k)) (v (ix3 b t k))

theorem back_step {mask : IVec (Sh 2048) 32} {x : FVec Ideal (Sh 2048) .f32} {s r : ℕ} (hs : 0 < s) (hsr : s + r = 2048)
    (hsl : (Sh 2048).Slices ![0, 0, 0] (Sh r)) (hc : Shape.Concatenates [Sh s, Sh r] (Sh 2048) 1)
    {a : IVec (Sh 2048) 32} {v : FVec Ideal (Sh 2048) .f32} (h : BackOK mask x s a v) :
    BackOK mask x (2 * s) (backI s r hsl hc a) (backV (F := Ideal) s r hsl hc a v) := by
  intro b t k
  obtain ⟨h1, c1⟩ := h b t k
  have ea := shiftLater_apply s r hsr hsl hc (4294967295#32 : BitVec 32) a b t k
  have ev := shiftLater_apply s r hsr hsl hc (Scalar.ofBits (F := Ideal) .f32 0x00000000#32) v b t k
  show LastIn _ (2 * s) t.val (Scalar.select (IntOp.cmpi .sgt (shiftLater s r hsl hc 4294967295#32 a (ix3 b t k)) (a (ix3 b t k)))
      (shiftLater s r hsl hc 4294967295#32 a (ix3 b t k)) (a (ix3 b t k)))
    ∧ Carries _ (Scalar.select (IntOp.cmpi .sgt (shiftLater s r hsl hc 4294967295#32 a (ix3 b t k)) (a (ix3 b t k)))
      (shiftLater s r hsl hc 4294967295#32 a (ix3 b t k)) (a (ix3 b t k)))
      (Scalar.select (IntOp.cmpi .sgt (shiftLater s r hsl hc 4294967295#32 a (ix3 b t k)) (a (ix3 b t k)))
      (shiftLater s r hsl hc (Scalar.ofBits (F := Ideal) .f32 0x00000000#32) v (ix3 b t k)) (v (ix3 b t k)))
  by_cases hts : t.val < s
  · rw [dif_pos hts] at ea ev
    rw [ea, ev]
    refine ⟨lastIn_step hs t.isLt h1 (by rw [if_pos hts]), carries_select _ c1 ?_⟩
    rw [show (Scalar.ofBits (F := Ideal) .f32 0x00000000#32 : EReal) = 0 from Ideal.ofBits_zero_f32]
    exact carries_below _
  · rw [dif_neg hts] at ea ev
    rw [ea, ev]
    obtain ⟨h2, c2⟩ := h b ⟨t.val - s, by have := t.isLt; omega⟩ k
    exact ⟨lastIn_step hs t.isLt h1 (by rw [if_neg hts]; exact h2), carries_select _ c1 c2⟩

theorem ahead_step {mask : IVec (Sh 2048) 32} {x : FVec Ideal (Sh 2048) .f32} {s r : ℕ} (hs : 0 < s) (hsr : s + r = 2048)
    (hsl : (Sh 2048).Slices ![0, s, 0] (Sh r)) (hc : Shape.Concatenates [Sh r, Sh s] (Sh 2048) 1)
    {a : IVec (Sh 2048) 32} {v : FVec Ideal (Sh 2048) .f32} (h : AheadOK mask x s a v) :
    AheadOK mask x (2 * s) (aheadI s r hsl hc a) (aheadV (F := Ideal) s r hsl hc a v) := by
  intro b t k
  obtain ⟨h1, c1⟩ := h b t k
  have ea := shiftEarlier_apply s r hsr hsl hc (2048#32 : BitVec 32) a b t k
  have ev := shiftEarlier_apply s r hsr hsl hc (Scalar.ofBits (F := Ideal) .f32 0x00000000#32) v b t k
  show FirstIn _ (2 * s) t.val (Scalar.select (IntOp.cmpi .slt (shiftEarlier s r hsl hc 2048#32 a (ix3 b t k)) (a (ix3 b t k)))
      (shiftEarlier s r hsl hc 2048#32 a (ix3 b t k)) (a (ix3 b t k)))
    ∧ Carries _ (Scalar.select (IntOp.cmpi .slt (shiftEarlier s r hsl hc 2048#32 a (ix3 b t k)) (a (ix3 b t k)))
      (shiftEarlier s r hsl hc 2048#32 a (ix3 b t k)) (a (ix3 b t k)))
      (Scalar.select (IntOp.cmpi .slt (shiftEarlier s r hsl hc 2048#32 a (ix3 b t k)) (a (ix3 b t k)))
      (shiftEarlier s r hsl hc (Scalar.ofBits (F := Ideal) .f32 0x00000000#32) v (ix3 b t k)) (v (ix3 b t k)))
  by_cases hts : t.val + s < 2048
  · rw [dif_pos hts] at ea ev
    rw [ea, ev]
    obtain ⟨h2, c2⟩ := h b ⟨t.val + s, hts⟩ k
    exact ⟨firstIn_step hs t.isLt h1 (by rw [if_pos (show t.val + s < T from hts)]; exact h2), carries_select _ c1 c2⟩
  · rw [dif_neg hts] at ea ev
    rw [ea, ev]
    refine ⟨firstIn_step hs t.isLt h1 (by rw [if_neg (show ¬ t.val + s < T from hts)]), carries_select _ c1 ?_⟩
    rw [show (Scalar.ofBits (F := Ideal) .f32 0x00000000#32 : EReal) = 0 from Ideal.ofBits_zero_f32]
    exact carries_past _

end Cert.Interp

end
-- ==== Proof.KernelPoint.lean ====
/-
  The kernel body's result at a position of its block.

  The body loads one block of values and one of mask words (`2 × 2048 × 128`: 256 series of length 2048), marks
  every observed position with itself and every other one with a sentinel, runs eleven doubling steps looking back
  and eleven looking ahead (shifts 1, 2, 4, …, 1024), and combines the two positions found and the values beside them.
  Read at `(b, t, k)` the stored block is series `(b, ·, k)` interpolated at `t`.
-/
import proofs.«414883_j54760833024018_3_alg».proof.Proof.Gen.KernelIdeal.Frame
import proofs.«414883_j54760833024018_3_alg».proof.Proof.Sweep

noncomputable section

namespace Cert.KernelIdeal.Point

open Idealize.ShloMosaic Idealize.ShloMosaic.ValueIdx Cert.KernelIdeal Cert.KernelIdeal.Gen
open Cert.Interp

/-- The whole-block rectangle starts at the origin. -/
theorem origin : (![0, 0, 0] : Fin 3 → Nat) = fun _ => 0 := funext fun a => by fin_cases a <;> rfl

section
variable (X : Vec Ideal S2x2048x128 .f32) (M : Vec Ideal S2x2048x128 .i32)

/-! ## Before the first step -/

/-- Series `(b, ·, k)` of a block at a position of the axis is the block's element there. -/
theorem colB_at {α : Type} (z : α) (a : (Sh 2048).Idx → α) (b : Fin 2) (t : Fin 2048) (k : Fin 128) :
    colB z a b k t.val = a (ix3 b t k) := by
  show (if h : t.val < 2048 then a (ix3 b ⟨t.val, h⟩ k) else z) = _
  rw [dif_pos t.isLt]

/-- The marks looking back, before any step: every observed position carries itself and its value, every other one
    the sentinel below the axis and zero. -/
theorem back_init : BackOK M X 1 (k0_pay3 M)
    (select (k0_pay2 M) (k0_pay1 X) (broadcast S2x2048x128 (Scalar.ofBits (F := Ideal) .f32 0x00000000#32))) := by
  intro b t k
  have hM : k0_pay2 M (ix3 b t k) = IntOp.cmpi .ne (colB 0#32 M b k t.val) 0#32 := by
    rw [colB_at]; unfold k0_pay2; simp only [shapeCast_self]; rfl
  have hI : k0_pay3 M (ix3 b t k)
      = Scalar.select (IntOp.cmpi .ne (colB 0#32 M b k t.val) 0#32) (BitVec.ofNat 32 t.val) 4294967295#32 := by
    unfold k0_pay3; rw [select_apply, hM, iota_single_apply]; rfl
  have hV : select (k0_pay2 M) (k0_pay1 X) (broadcast S2x2048x128 (Scalar.ofBits (F := Ideal) .f32 0x00000000#32)) (ix3 b t k)
      = Scalar.select (IntOp.cmpi .ne (colB 0#32 M b k t.val) 0#32) (colB (0 : EReal) X b k t.val) 0 := by
    rw [select_apply, hM, colB_at (0 : EReal) X]; unfold k0_pay1; simp only [shapeCast_self]
    rw [broadcast_apply]
    show Scalar.select _ _ (Ideal.ofBits .f32 0x00000000#32) = _
    rw [Ideal.ofBits_zero_f32]
  rw [hI, hV]
  exact ⟨lastIn_init _ t.isLt, carries_init_below _ _ t.isLt⟩

/-- The marks looking ahead, before any step: the sentinel is the one past the axis. -/
theorem ahead_init : AheadOK M X 1 (k0_pay4 M)
    (select (k0_pay2 M) (k0_pay1 X) (broadcast S2x2048x128 (Scalar.ofBits (F := Ideal) .f32 0x00000000#32))) := by
  intro b t k
  have hM : k0_pay2 M (ix3 b t k) = IntOp.cmpi .ne (colB 0#32 M b k t.val) 0#32 := by
    rw [colB_at]; unfold k0_pay2; simp only [shapeCast_self]; rfl
  have hI : k0_pay4 M (ix3 b t k)
      = Scalar.select (IntOp.cmpi .ne (colB 0#32 M b k t.val) 0#32) (BitVec.ofNat 32 t.val) 2048#32 := by
    unfold k0_pay4; rw [select_apply, hM, iota_single_apply]; rfl
  have hV : select (k0_pay2 M) (k0_pay1 X) (broadcast S2x2048x128 (Scalar.ofBits (F := Ideal) .f32 0x00000000#32)) (ix3 b t k)
      = Scalar.select (IntOp.cmpi .ne (colB 0#32 M b k t.val) 0#32) (colB (0 : EReal) X b k t.val) 0 := by
    rw [select_apply, hM, colB_at (0 : EReal) X]; unfold k0_pay1; simp only [shapeCast_self]
    rw [broadcast_apply]
    show Scalar.select _ _ (Ideal.ofBits .f32 0x00000000#32) = _
    rw [Ideal.ofBits_zero_f32]
  rw [hI, hV]
  exact ⟨firstIn_init _ t.isLt, carries_init_past _ _ t.isLt⟩

/-! ## The steps, part by part

Each lemma takes what a part of the body reads — a pair of position words and values that is right for windows of some
width, and where a part starts inside a step, the pieces of that step already made — and says that what the part hands
on is right for the wider windows. -/

/-- Looking back, shift 1. -/
theorem back_1 : BackOK M X 2 (k0_pay7 M) (k0_pay8 (F := Ideal) X M) :=
  back_step (s := 1) (r := 2047) Nat.one_pos rfl slices_S2x2048x128_o0_0_0_S2x2047x128
    concatenates_S2x1x128_S2x2047x128_S2x2048x128_d1 (back_init X M)

/-- Looking ahead, shift 1. -/
theorem ahead_1 : AheadOK M X 2 (k0_pay11 M) (k0_pay12 (F := Ideal) X M) :=
  ahead_step (s := 1) (r := 2047) Nat.one_pos rfl slices_S2x2048x128_o0_1_0_S2x2047x128
    concatenates_S2x2047x128_S2x1x128_S2x2048x128_d1 (ahead_init X M)

/-- Looking back, shifts 2, 4 and 8. The part starts inside the step of shift 2: the values moved by it (`v38`), its
    comparison (`v39`) and its new position words (`v40`) are already made. -/
theorem back_8 {I1 : IVec S2x2048x128 32} {V1 : FVec Ideal S2x2048x128 .f32} (h : BackOK M X 2 I1 V1)
    {v38 : FVec Ideal S2x2048x128 .f32} {v39 : IVec S2x2048x128 1} {v40 : IVec S2x2048x128 32}
    (e38 : v38 = shiftLater 2 2046 slices_S2x2048x128_o0_0_0_S2x2046x128 concatenates_S2x2x128_S2x2046x128_S2x2048x128_d1
      (Scalar.ofBits (F := Ideal) .f32 0x00000000#32) V1)
    (e39 : v39 = cmpi .sgt (shiftLater 2 2046 slices_S2x2048x128_o0_0_0_S2x2046x128
      concatenates_S2x2x128_S2x2046x128_S2x2048x128_d1 4294967295#32 I1) I1)
    (e40 : v40 = backI 2 2046 slices_S2x2048x128_o0_0_0_S2x2046x128 concatenates_S2x2x128_S2x2046x128_S2x2048x128_d1 I1) :
    BackOK M X 16 (k0_pay28 v40) (k0_pay29 (F := Ideal) V1 v38 v39 v40) := by
  subst e38 e39 e40
  have h2 := back_step (s := 2) (r := 2046) (by norm_num) rfl slices_S2x2048x128_o0_0_0_S2x2046x128
    concatenates_S2x2x128_S2x2046x128_S2x2048x128_d1 h
  have h4 := back_step (s := 4) (r := 2044) (by norm_num) rfl slices_S2x2048x128_o0_0_0_S2x2044x128
    concatenates_S2x4x128_S2x2044x128_S2x2048x128_d1 h2
  have h8 := back_step (s := 8) (r := 2040) (by norm_num) rfl slices_S2x2048x128_o0_0_0_S2x2040x128
    concatenates_S2x8x128_S2x2040x128_S2x2048x128_d1 h4
  exact h8

/-- Looking back, shifts 16, 32 and 64; the position words moved by 16 (`v89`) are already made. -/
theorem back_64 {I4 : IVec S2x2048x128 32} {V4 : FVec Ideal S2x2048x128 .f32} (h : BackOK M X 16 I4 V4)
    {v89 : IVec S2x2048x128 32}
    (e89 : v89 = shiftLater 16 2032 slices_S2x2048x128_o0_0_0_S2x2032x128
      concatenates_S2x16x128_S2x2032x128_S2x2048x128_d1 4294967295#32 I4) :
    BackOK M X 128 (k0_pay49 I4 v89) (k0_pay50 (F := Ideal) I4 V4 v89) := by
  subst e89
  have h16 := back_step (s := 16) (r := 2032) (by norm_num) rfl slices_S2x2048x128_o0_0_0_S2x2032x128
    concatenates_S2x16x128_S2x2032x128_S2x2048x128_d1 h
  have h32 := back_step (s := 32) (r := 2016) (by norm_num) rfl slices_S2x2048x128_o0_0_0_S2x2016x128
    concatenates_S2x32x128_S2x2016x128_S2x2048x128_d1 h16
  have h64 := back_step (s := 64) (r := 1984) (by norm_num) rfl slices_S2x2048x128_o0_0_0_S2x1984x128
    concatenates_S2x64x128_S2x1984x128_S2x2048x128_d1 h32
  exact h64

/-- Looking back, shifts 128, 256 and 512. -/
theorem back_512 {I7 : IVec S2x2048x128 32} {V7 : FVec Ideal S2x2048x128 .f32} (h : BackOK M X 128 I7 V7) :
    BackOK M X 1024 (k0_pay70 I7) (k0_pay71 (F := Ideal) I7 V7) := by
  have h128 := back_step (s := 128) (r := 1920) (by norm_num) rfl slices_S2x2048x128_o0_0_0_S2x1920x128
    concatenates_S2x128x128_S2x1920x128_S2x2048x128_d1 h
  have h256 := back_step (s := 256) (r := 1792) (by norm_num) rfl slices_S2x2048x128_o0_0_0_S2x1792x128
    concatenates_S2x256x128_S2x1792x128_S2x2048x128_d1 h128
  have h512 := back_step (s := 512) (r := 1536) (by norm_num) rfl slices_S2x2048x128_o0_0_0_S2x1536x128
    concatenates_S2x512x128_S2x1536x128_S2x2048x128_d1 h256
  exact h512

/-- Looking ahead, shifts 2, 4 and 8. -/
theorem ahead_8 {J1 : IVec S2x2048x128 32} {W1 : FVec Ideal S2x2048x128 .f32} (h : AheadOK M X 2 J1 W1) :
    AheadOK M X 16 (k0_pay32 J1) (k0_pay33 (F := Ideal) J1 W1) := by
  have h2 := ahead_step (s := 2) (r := 2046) (by norm_num) rfl slices_S2x2048x128_o0_2_0_S2x2046x128
    concatenates_S2x2046x128_S2x2x128_S2x2048x128_d1 h
  have h4 := ahead_step (s := 4) (r := 2044) (by norm_num) rfl slices_S2x2048x128_o0_4_0_S2x2044x128
    concatenates_S2x2044x128_S2x4x128_S2x2048x128_d1 h2
  have h8 := ahead_step (s := 8) (r := 2040) (by norm_num) rfl slices_S2x2048x128_o0_8_0_S2x2040x128
    concatenates_S2x2040x128_S2x8x128_S2x2048x128_d1 h4
  exact h8

/-- Looking ahead, shifts 16 and 32. -/
theorem ahead_32 {J4 : IVec S2x2048x128 32} {W4 : FVec Ideal S2x2048x128 .f32} (h : AheadOK M X 16 J4 W4) :
    AheadOK M X 64 (k0_pay45 J4) (k0_pay46 (F := Ideal) J4 W4) := by
  have h16 := ahead_step (s := 16) (r := 2032) (by norm_num) rfl slices_S2x2048x128_o0_16_0_S2x2032x128
    concatenates_S2x2032x128_S2x16x128_S2x2048x128_d1 h
  have h32 := ahead_step (s := 32) (r := 2016) (by norm_num) rfl slices_S2x2048x128_o0_32_0_S2x2016x128
    concatenates_S2x2016x128_S2x32x128_S2x2048x128_d1 h16
  exact h32

/-- Looking ahead, shifts 64, 128 and 256. The part starts inside the step of shift 64: the position words and the
    values moved by it (`v134`, `v137`) and its comparison (`v138`) are already made. -/
theorem ahead_256 {J6 : IVec S2x2048x128 32} {W6 : FVec Ideal S2x2048x128 .f32} (h : AheadOK M X 64 J6 W6)
    {v134 : IVec S2x2048x128 32} {v137 : FVec Ideal S2x2048x128 .f32} {v138 : IVec S2x2048x128 1}
    (e134 : v134 = shiftEarlier 64 1984 slices_S2x2048x128_o0_64_0_S2x1984x128
      concatenates_S2x1984x128_S2x64x128_S2x2048x128_d1 2048#32 J6)
    (e137 : v137 = shiftEarlier 64 1984 slices_S2x2048x128_o0_64_0_S2x1984x128
      concatenates_S2x1984x128_S2x64x128_S2x2048x128_d1 (Scalar.ofBits (F := Ideal) .f32 0x00000000#32) W6)
    (e138 : v138 = cmpi .slt v134 J6) :
    AheadOK M X 512 (k0_pay66 J6 v134 v138) (k0_pay67 (F := Ideal) J6 W6 v134 v137 v138) := by
  subst e134 e137 e138
  have h64 := ahead_step (s := 64) (r := 1984) (by norm_num) rfl slices_S2x2048x128_o0_64_0_S2x1984x128
    concatenates_S2x1984x128_S2x64x128_S2x2048x128_d1 h
  have h128 := ahead_step (s := 128) (r := 1920) (by norm_num) rfl slices_S2x2048x128_o0_128_0_S2x1920x128
    concatenates_S2x1920x128_S2x128x128_S2x2048x128_d1 h64
  have h256 := ahead_step (s := 256) (r := 1792) (by norm_num) rfl slices_S2x2048x128_o0_256_0_S2x1792x128
    concatenates_S2x1792x128_S2x256x128_S2x2048x128_d1 h128
  exact h256

end

/-! ## The last part: three more steps and the choice -/

/-- A bit made from a truth value is one exactly when the value is true. -/
theorem ofBool_one_iff (c : Bool) : BitVec.ofBool c = 1#1 ↔ c = true := by cases c <;> decide

/-- A signed "at least zero" comparison, read through the word's integer. -/
theorem sge_zero_iff (A : BitVec 32) : IntOp.cmpi .sge A 0#32 = 1#1 ↔ 0 ≤ A.toInt := by
  show BitVec.ofBool ((0#32).sle A) = 1#1 ↔ _
  have h0 : (0#32 : BitVec 32).toInt = 0 := by decide
  rw [ofBool_one_iff, BitVec.sle_iff_toInt_le, h0]

/-- A signed "below the axis length" comparison, read through the word's integer. -/
theorem slt_len_iff (B : BitVec 32) : IntOp.cmpi .slt B 2048#32 = 1#1 ↔ B.toInt < 2048 := by
  show BitVec.ofBool (B.slt 2048#32) = 1#1 ↔ _
  have h0 : (2048#32 : BitVec 32).toInt = 2048 := by decide
  rw [ofBool_one_iff, BitVec.slt_iff_toInt_lt, h0]

/-- The last statements of the body at an index, over the four arrays the last steps leave. -/
theorem pay74_at {v1 : FVec Ideal S2x2048x128 .f32} {v5 : IVec S2x2048x128 1} {v6 : IVec S2x2048x128 32}
    {J9 : IVec S2x2048x128 32} {W9 : FVec Ideal S2x2048x128 .f32} {I10 : IVec S2x2048x128 32} {V10 : FVec Ideal S2x2048x128 .f32}
    {A B : IVec S2x2048x128 32} {V W : FVec Ideal S2x2048x128 .f32}
    (hA : A = backI 1024 1024 slices_S2x2048x128_o0_0_0_S2x1024x128 concatenates_S2x1024x128_S2x1024x128_S2x2048x128_d1 I10)
    (hV : V = backV (F := Ideal) 1024 1024 slices_S2x2048x128_o0_0_0_S2x1024x128 concatenates_S2x1024x128_S2x1024x128_S2x2048x128_d1 I10 V10)
    (hB : B = aheadI 1024 1024 slices_S2x2048x128_o0_1024_0_S2x1024x128 concatenates_S2x1024x128_S2x1024x128_S2x2048x128_d1
      (aheadI 512 1536 slices_S2x2048x128_o0_512_0_S2x1536x128 concatenates_S2x1536x128_S2x512x128_S2x2048x128_d1 J9))
    (hW : W = aheadV (F := Ideal) 1024 1024 slices_S2x2048x128_o0_1024_0_S2x1024x128 concatenates_S2x1024x128_S2x1024x128_S2x2048x128_d1
      (aheadI 512 1536 slices_S2x2048x128_o0_512_0_S2x1536x128 concatenates_S2x1536x128_S2x512x128_S2x2048x128_d1 J9)
      (aheadV (F := Ideal) 512 1536 slices_S2x2048x128_o0_512_0_S2x1536x128 concatenates_S2x1536x128_S2x512x128_S2x2048x128_d1 J9 W9))
    (i : S2x2048x128.Idx) :
    k0_pay74 (F := Ideal) v1 v5 v6 J9 W9 I10 V10 k0_pay72
        (extractStridedSlice S2x1536x128 ![0, 512, 0] J9 slices_S2x2048x128_o0_512_0_S2x1536x128) i
      = Scalar.select (v5 i) (v1 i)
          (Scalar.select (IntOp.andi (IntOp.cmpi .sge (A i) 0#32) (IntOp.cmpi .slt (B i) 2048#32))
            (V i + (W i - V i) * weight (v6 i) (A i) (B i))
            (Scalar.select (IntOp.cmpi .sge (A i) 0#32) (V i)
              (Scalar.select (IntOp.cmpi .slt (B i) 2048#32) (W i) (Ideal.ofBits .f32 0x00000000#32)))) := by
  subst hA hV hB hW; rfl

/-- The last part of the body at a position: the last three steps, then the choice between the straight line, the
    nearer end and zero. -/
theorem tail_apply (X : Vec Ideal S2x2048x128 .f32) (M : Vec Ideal S2x2048x128 .i32)
    {J9 : IVec S2x2048x128 32} {W9 : FVec Ideal S2x2048x128 .f32} {I10 : IVec S2x2048x128 32} {V10 : FVec Ideal S2x2048x128 .f32}
    (hA : AheadOK M X 512 J9 W9) (hB : BackOK M X 1024 I10 V10) {v187 : IVec S2x1536x128 32}
    (e187 : v187 = extractStridedSlice S2x1536x128 ![0, 512, 0] J9 slices_S2x2048x128_o0_512_0_S2x1536x128)
    (b : Fin 2) (t : Fin 2048) (k : Fin 128) :
    k0_pay74 (F := Ideal) (k0_pay1 X) (k0_pay2 M) (iota .tc S2x2048x128 32 [1] iota_S2x2048x128_d1_w32) J9 W9 I10 V10 k0_pay72 v187 (ix3 b t k)
      = interp (colB 0#32 M b k) (colB (0 : EReal) X b k) t.val := by
  subst e187
  have hA10 := ahead_step (s := 512) (r := 1536) (by norm_num) rfl slices_S2x2048x128_o0_512_0_S2x1536x128
    concatenates_S2x1536x128_S2x512x128_S2x2048x128_d1 hA
  have hA11 := ahead_step (s := 1024) (r := 1024) (by norm_num) rfl slices_S2x2048x128_o0_1024_0_S2x1024x128
    concatenates_S2x1024x128_S2x1024x128_S2x2048x128_d1 hA10
  have hB11 := back_step (s := 1024) (r := 1024) (by norm_num) rfl slices_S2x2048x128_o0_0_0_S2x1024x128
    concatenates_S2x1024x128_S2x1024x128_S2x2048x128_d1 hB
  obtain ⟨hl, hcv⟩ := hB11 b t k
  obtain ⟨hf, hcw⟩ := hA11 b t k
  rw [pay74_at rfl rfl rfl rfl (ix3 b t k)]
  generalize backI 1024 1024 _ _ I10 (ix3 b t k) = A at hl hcv ⊢
  generalize backV (F := Ideal) 1024 1024 _ _ I10 V10 (ix3 b t k) = pv at hcv ⊢
  generalize aheadI 1024 1024 _ _ (aheadI 512 1536 _ _ J9) (ix3 b t k) = B at hf hcw ⊢
  generalize aheadV (F := Ideal) 1024 1024 _ _ (aheadI 512 1536 _ _ J9) (aheadV (F := Ideal) 512 1536 _ _ J9 W9) (ix3 b t k) = nv at hcw ⊢
  have hAe : A.toInt = lastObs (colB 0#32 M b k) t.val := lastIn_final hl (by have := t.isLt; omega) t.isLt
  have hBe : B.toInt = firstObs (colB 0#32 M b k) t.val :=
    firstIn_final hf (by show 2048 ≤ t.val + 2 * 1024; omega) t.isLt
  have hlr := lastObs_range (colB 0#32 M b k) t.val
  have hfr := firstObs_range (colB 0#32 M b k) t.isLt
  have ht := t.isLt
  have key := combine_eq (colB 0#32 M b k) (colB (0 : EReal) X b k) t.isLt (A := A) (B := B) (pv := pv) (nv := nv)
    (z := Ideal.ofBits .f32 0x00000000#32) (hp := IntOp.cmpi .sge A 0#32) (hn := IntOp.cmpi .slt B 2048#32) hAe hBe
    (fun h0 => hcv.1 _ (by show (lastObs _ _).toNat < 2048; omega) (by rw [hAe]; exact (Int.toNat_of_nonneg h0).symm))
    (fun h1 => hcw.1 _ (by show (firstObs _ _).toNat < 2048; have h1' : firstObs (colB 0#32 M b k) t.val < 2048 := h1; omega)
      (by rw [hBe]; exact (Int.toNat_of_nonneg (by omega)).symm))
    (by rw [sge_zero_iff, hAe]) (by rw [slt_len_iff, hBe]; rfl) Ideal.ofBits_zero_f32
  rw [colB_at 0#32 M, colB_at (0 : EReal) X] at key
  rw [← key]
  unfold k0_pay1 k0_pay2
  simp only [shapeCast_self]
  rw [iota_single_apply]
  rfl

/-- What the body leaves in the output block, at position `(b, t, k)`: the block's series `(b, ·, k)` interpolated at `t`. -/
theorem out_apply (x0 : Vec Ideal S2x2048x128 .f32) (x1 : Vec Ideal S2x2048x128 .i32) (b : Fin 2) (t : Fin 2048) (k : Fin 128) :
    out0_2 (F := Ideal) x0 x1 (ix3 b t k)
      = Cert.Interp.interp (Cert.Interp.colB 0#32 x1 b k) (Cert.Interp.colB (0 : EReal) x0 b k) t.val := by
  -- looking back: the marks, then the steps the first four parts of the body hold
  have hB4 := back_8 x0 x1 (back_1 x0 x1) (v38 := k0_pay14 x0 x1) (v39 := k0_pay15 x1) (v40 := k0_pay16 x1) rfl rfl rfl
  have hB7 := back_64 x0 x1 hB4 (v89 := k0_pay34 (k0_pay16 x1)) rfl
  have hB10 := back_512 x0 x1 hB7
  -- looking ahead
  have hA4 := ahead_8 x0 x1 (ahead_1 x0 x1)
  have hA6 := ahead_32 x0 x1 hA4
  have hA9 := ahead_256 x0 x1 hA6 (v134 := k0_pay51 (k0_pay32 (k0_pay11 x1)))
    (v137 := k0_pay52 (k0_pay32 (k0_pay11 x1)) (k0_pay33 (k0_pay11 x1) (k0_pay12 x0 x1)))
    (v138 := k0_pay53 (k0_pay32 (k0_pay11 x1))) rfl rfl rfl
  -- the one store covers the block, and both loads read whole blocks
  unfold out0_2
  rw [View.canon_unit_zero origin]
  simp only [View.ld_unit_zero (S := S2x2048x128) origin]
  exact tail_apply x0 x1 hA9 hB10 rfl b t k

end Cert.KernelIdeal.Point

end
-- ==== Proof.Spec.lean ====
/-
  The interpolated array: every series `(b, ·, k, c)` of the `64 × 2048 × 64 × 4` arguments interpolated along its time
  axis (`Cert.Interp.interp`), as ONE function of the two argument arrays.  Both programs are proved to end at it.
-/
import proofs.«414883_j54760833024018_3_alg».proof.Proof.Series
import Idealize.ShloMosaic.Lib.ValueIdx

noncomputable section

namespace Cert.Interp

open Idealize.ShloMosaic Idealize.ShloMosaic.ValueIdx

/-- The arguments' shape. -/
abbrev S4 : Shape := ⟨4, ![64, 2048, 64, 4]⟩

/-- Series `(b, ·, k, c)` of an argument array, as a function of the position (`z` past the axis, never read). -/
def col4 {α : Type} (z : α) (a : S4.Idx → α) (b : Fin 64) (k : Fin 64) (c : Fin 4) : ℕ → α :=
  fun u => if h : u < 2048 then a (ix4 b ⟨u, h⟩ k c) else z

/-- The result array: at `(b, t, k, c)` the series `(b, ·, k, c)` interpolated at `t`. -/
def G (x : S4.Idx → EReal) (mask : S4.Idx → BitVec 32) : S4.Idx → EReal :=
  fun i => interp (col4 0#32 mask (i 0) (i 2) (i 3)) (col4 (0 : EReal) x (i 0) (i 2) (i 3)) (i 1).val

end Cert.Interp

end
-- ==== Proof.KernelArray.lean ====
/-
  The kernel program's result array.

  @main views both arguments as `64 × 2048 × 256` (the last two axes merged), cuts that into `32 × 2` blocks of
  `2 × 2048 × 128`, runs the body on each, and views the result as `64 × 2048 × 64 × 4` again.  Every series lies inside
  one block, so the result array is every series of the arguments interpolated along its time axis.

  The steps: the result in the merged view (`G3`: every series `(B, ·, KC)` of the merged arrays interpolated); what
  a grid point writes back is its block of `G3` (a block's series is a series of the merged array, position by
  position); the `32 × 2` blocks fill the merged array, so the region's output array is `G3`; merging the last two
  axes keeps every series (series `(b, ·, 4 k + c)` of the merged view is series `(b, ·, k, c)`), so `G3` of the merged
  arguments, read back through the split of the last axis, is the interpolated array of the arguments.
-/
import proofs.«414883_j54760833024018_3_alg».proof.Proof.KernelPoint
import proofs.«414883_j54760833024018_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx Cert.KernelIdeal Cert.KernelIdeal.Gen
open Idealize.ShloMosaic.Pipeline (Dat)

/-! ## The result in the merged view -/

/-- Series `(B, ·, KC)` of an array in the merged view `64 × 2048 × 256`, as a function of the position
    (`z` past the axis, never read). -/
def colM {α : Type} (z : α) (a : S64x2048x256.Idx → α) (B : Fin 64) (KC : Fin 256) : ℕ → α :=
  fun u => if h : u < 2048 then a (ix3 B ⟨u, h⟩ KC) else z

/-- The result in the merged view: at `(B, t, KC)` the series `(B, ·, KC)` of the two merged arrays interpolated at `t`. -/
def G3 (xr : S64x2048x256.Idx → EReal) (mr : S64x2048x256.Idx → BitVec 32) : S64x2048x256.Idx → EReal :=
  fun i => Cert.Interp.interp (colM 0#32 mr (i 0) (i 2)) (colM (0 : EReal) xr (i 0) (i 2)) (i 1).val

/-- Merging the last two axes keeps every series: series `(b, ·, 4 k + c)` of the merged view is series `(b, ·, k, c)`. -/
theorem colM_merge {α : Type} (z : α) (a : S64x2048x64x4.Idx → α) (b : Fin 64) (k : Fin 64) (cc : Fin 4)
    (hkc : k.val * 4 + cc.val < 256) :
    colM z (shapeCast S64x2048x256 a shapeCasts_S64x2048x64x4_S64x2048x256) b ⟨k.val * 4 + cc.val, hkc⟩
      = Cert.Interp.col4 z a b k cc := by
  funext u
  unfold colM Cert.Interp.col4
  split
  · rename_i h
    refine shapeCast_apply a shapeCasts_S64x2048x64x4_S64x2048x256 (ix3 b ⟨u, h⟩ ⟨k.val * 4 + cc.val, hkc⟩) (ix4 b ⟨u, h⟩ k cc) ?_
    rw [Shape.rowMajor_val_four, Shape.rowMajor_val_three]
    show ((b.val * 2048 + u) * 64 + k.val) * 4 + cc.val = (b.val * 2048 + u) * 256 + (k.val * 4 + cc.val)
    omega
  · rfl

/-- The merged result read back through the split of the last axis is the interpolated array of the arguments. -/
theorem G3_merge (x : S64x2048x64x4.Idx → EReal) (mask : S64x2048x64x4.Idx → BitVec 32) :
    shapeCast S64x2048x64x4
        (G3 (shapeCast S64x2048x256 x shapeCasts_S64x2048x64x4_S64x2048x256)
            (shapeCast S64x2048x256 mask shapeCasts_S64x2048x64x4_S64x2048x256))
        shapeCasts_S64x2048x256_S64x2048x64x4
      = Cert.Interp.G x mask := by
  funext i
  obtain ⟨b, t, k, cc, rfl⟩ : ∃ (b : Fin 64) (t : Fin 2048) (k : Fin 64) (cc : Fin 4), i = ix4 b t k cc :=
    ⟨i 0, i 1, i 2, i 3, eq_ix4 i⟩
  have hkc : k.val * 4 + cc.val < 256 := by omega
  refine (shapeCast_apply _ shapeCasts_S64x2048x256_S64x2048x64x4 (ix4 b t k cc) (ix3 b t ⟨k.val * 4 + cc.val, hkc⟩) ?_).trans ?_
  · rw [Shape.rowMajor_val_four, Shape.rowMajor_val_three]
    show (b.val * 2048 + t.val) * 256 + (k.val * 4 + cc.val) = ((b.val * 2048 + t.val) * 64 + k.val) * 4 + cc.val
    omega
  · show Cert.Interp.interp (colM 0#32 _ b ⟨k.val * 4 + cc.val, hkc⟩) (colM (0 : EReal) _ b ⟨k.val * 4 + cc.val, hkc⟩) t.val
        = Cert.Interp.interp (Cert.Interp.col4 0#32 mask b k cc) (Cert.Interp.col4 (0 : EReal) x b k cc) t.val
    rw [colM_merge 0#32 mask b k cc hkc, colM_merge (0 : EReal) x b k cc hkc]

/-! ## A block's series are series of the merged array -/

/-- The body's result at a position of a block whose two inputs are the merged arrays read at block
    `(q0, q2)` — row `2 q0 + b`, every position, column `128 q2 + k` — is the merged result there: the block's series
    `(b, ·, k)` and the merged arrays' series `(2 q0 + b, ·, 128 q2 + k)` agree at every position. -/
theorem block_point (x0 : Vec Ideal S2x2048x128 .f32) (x1 : Vec Ideal S2x2048x128 .i32)
    (xr : S64x2048x256.Idx → EReal) (mr : S64x2048x256.Idx → BitVec 32) (q0 q2 : ℕ)
    (h0 : ∀ (y : S2x2048x128.Idx) (i : S64x2048x256.Idx), (i 0).val = q0 * 2 + (y 0).val → (i 1).val = (y 1).val →
      (i 2).val = q2 * 128 + (y 2).val → x0 y = xr i)
    (h1 : ∀ (y : S2x2048x128.Idx) (i : S64x2048x256.Idx), (i 0).val = q0 * 2 + (y 0).val → (i 1).val = (y 1).val →
      (i 2).val = q2 * 128 + (y 2).val → x1 y = mr i)
    (j : S2x2048x128.Idx) (i : S64x2048x256.Idx) (e0 : (i 0).val = q0 * 2 + (j 0).val) (e1 : (i 1).val = (j 1).val)
    (e2 : (i 2).val = q2 * 128 + (j 2).val) :
    out0_2 (F := Ideal) x0 x1 j = G3 xr mr i := by
  obtain ⟨b, t, k, rfl⟩ : ∃ (b : Fin 2) (t : Fin 2048) (k : Fin 128), j = ix3 b t k := ⟨j 0, j 1, j 2, eq_ix3 j⟩
  obtain ⟨B, T', KC, rfl⟩ : ∃ (B : Fin 64) (T' : Fin 2048) (KC : Fin 256), i = ix3 B T' KC := ⟨i 0, i 1, i 2, eq_ix3 i⟩
  have e0' : B.val = q0 * 2 + b.val := e0
  have e1' : T'.val = t.val := e1
  have e2' : KC.val = q2 * 128 + k.val := e2
  obtain rfl : T' = t := Fin.ext e1'
  have hm : Cert.Interp.colB 0#32 x1 b k = colM 0#32 mr B KC := by
    funext u
    unfold Cert.Interp.colB colM
    split
    · rename_i h
      exact h1 (ix3 b ⟨u, h⟩ k) (ix3 B ⟨u, h⟩ KC) e0' rfl e2'
    · rfl
  have hx : Cert.Interp.colB (0 : EReal) x0 b k = colM (0 : EReal) xr B KC := by
    funext u
    unfold Cert.Interp.colB colM
    split
    · rename_i h
      exact h0 (ix3 b ⟨u, h⟩ k) (ix3 B ⟨u, h⟩ KC) e0' rfl e2'
    · rfl
  refine (Cert.KernelIdeal.Point.out_apply x0 x1 b T' k).trans ?_
  show Cert.Interp.interp (Cert.Interp.colB 0#32 x1 b k) (Cert.Interp.colB (0 : EReal) x0 b k) T'.val
      = Cert.Interp.interp (colM 0#32 mr B KC) (colM (0 : EReal) xr B KC) T'.val
  rw [hm, hx]

section

variable (m : (ℓ : Loc nD τ sig) → Buf (Elt Ideal) ℓ) (ρ : Dev nD → PrngReg)

/-! ## The grid: which block each point holds -/

/-- The three windows move together over the grid: block row `i`, the whole time axis, block column `j`. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_2.index t (0 : Fin 3)
    ∧ win0_1.index t (1 : Fin 3) = win0_2.index t (1 : Fin 3)
    ∧ win0_1.index t (2 : Fin 3) = win0_2.index t (2 : Fin 3)
    ∧ win0_2.index t (0 : Fin 3) ≤ 31 ∧ win0_2.index t (1 : Fin 3) = 0 ∧ win0_2.index t (2 : Fin 3) ≤ 1 :=
  (by decide +kernel : ∀ t : Fin grid0.N, _)

/-- Every block of the merged array is some grid point's. -/
theorem idx_onto : ∀ (q0 : Fin 32) (q2 : Fin 2), ∃ t : Fin cfg0.N, win0_2.index t = ![q0.val, 0, q2.val] :=
  (by decide +kernel : ∀ (q0 : Fin 32) (q2 : Fin 2), ∃ t : Fin grid0.N, win0_2.index t = ![q0.val, 0, q2.val])

/-- An index of the merged array lies in point `t`'s output block iff each coordinate lies in the block's range. -/
theorem mem_blk (t : Fin cfg0.N) (i : S64x2048x256.Idx) :
    i ∈ ((cfg0.win 2).blk t).view.set ↔ ∀ a : Fin 3, win0_2.index t a * S2x2048x128.size a ≤ (i a).val ∧ (i a).val < win0_2.index t a * S2x2048x128.size a + S2x2048x128.size a := by
  show i ∈ ((View.whole main_v2).slice (win0_2.rect t)).set ↔ _
  rw [View.set_slice_whole, Rect.mem_set_unit]
  exact Iff.rfl

/-- The output blocks fill the merged array: row `B` and column `KC` lie in the block of point `(B / 2, KC / 128)`. -/
theorem cover (i : S64x2048x256.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 256 := (i 2).isLt
  obtain ⟨t, ht⟩ := idx_onto ⟨(i 0).val / 2, by omega⟩ ⟨(i 2).val / 128, by omega⟩
  have q0 : win0_2.index t (0 : Fin 3) = (i 0).val / 2 := congrFun ht 0
  have q1 : win0_2.index t (1 : Fin 3) = 0 := congrFun ht 1
  have q2 : win0_2.index t (2 : Fin 3) = (i 2).val / 128 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-! ## The input blocks, read at a position -/

/-- The value block of point `t`, read at a position, is the merged value array at block index × block size + the position. -/
theorem iblk0_apply (c : Dev nD) (t : Fin cfg0.N) (y : S2x2048x128.Idx) (i : S64x2048x256.Idx)
    (e0 : (i 0).val = win0_0.index t (0 : Fin 3) * 2 + (y 0).val)
    (e1 : (i 1).val = win0_0.index t (1 : Fin 3) * 2048 + (y 1).val)
    (e2 : (i 2).val = win0_0.index t (2 : Fin 3) * 128 + (y 2).val) :
    (iblk m c 0 t : Vec Ideal S2x2048x128 .f32) y = (V m c main_v0 : S64x2048x256.Idx → EReal) i := by
  show V m c main_v0 (((cfg0.win 0).blk t).view.emb y) = V m c main_v0 i
  refine congrArg (V m c main_v0) ?_
  funext a; apply Fin.ext
  match a with
  | ⟨0, _⟩ => show win0_0.index t (0 : Fin 3) * 2 + 1 * (y 0).val = (i 0).val; omega
  | ⟨1, _⟩ => show win0_0.index t (1 : Fin 3) * 2048 + 1 * (y 1).val = (i 1).val; omega
  | ⟨2, _⟩ => show win0_0.index t (2 : Fin 3) * 128 + 1 * (y 2).val = (i 2).val; omega

/-- The same for the block of mask words. -/
theorem iblk1_apply (c : Dev nD) (t : Fin cfg0.N) (y : S2x2048x128.Idx) (i : S64x2048x256.Idx)
    (e0 : (i 0).val = win0_1.index t (0 : Fin 3) * 2 + (y 0).val)
    (e1 : (i 1).val = win0_1.index t (1 : Fin 3) * 2048 + (y 1).val)
    (e2 : (i 2).val = win0_1.index t (2 : Fin 3) * 128 + (y 2).val) :
    (iblk m c 1 t : Vec Ideal S2x2048x128 .i32) y = (V m c main_v1 : S64x2048x256.Idx → BitVec 32) i := by
  show V m c main_v1 (((cfg0.win 1).blk t).view.emb y) = V m c main_v1 i
  refine congrArg (V m c main_v1) ?_
  funext a; apply Fin.ext
  match a with
  | ⟨0, _⟩ => show win0_1.index t (0 : Fin 3) * 2 + 1 * (y 0).val = (i 0).val; omega
  | ⟨1, _⟩ => show win0_1.index t (1 : Fin 3) * 2048 + 1 * (y 1).val = (i 1).val; omega
  | ⟨2, _⟩ => show win0_1.index t (2 : Fin 3) * 128 + 1 * (y 2).val = (i 2).val; omega

/-! ## What a point writes back, and the region's output array -/

/-- What point `t` writes back is block `t` of the merged result of the two merged arrays as the region finds them. -/
theorem flushed_eq (c : Dev nD) (t : Fin cfg0.N) :
    (dats m 0 c).flushed 2 t
      = ((cfg0.win 2).blk t).view.read (Elt Ideal) (G3 (V m c main_v0) (V m c main_v1)) := by
  show (cfg0.win 2).cut (grid0.coords t) ((dats m 0 c).after 2 t) = _
  rw [after0_2]
  obtain ⟨a0, a1, a2, b0, b1, b2, -, z1, -⟩ := idx_facts t
  funext j
  show out0_2 (F := Ideal) (iblk m c 0 t) (iblk m c 1 t) j
      = G3 (V m c main_v0) (V m c main_v1) (((cfg0.win 2).blk t).view.emb j)
  have hj0 : (j 0).val < 2 := (j 0).isLt
  have hj1 : (j 1).val < 2048 := (j 1).isLt
  have hj2 : (j 2).val < 128 := (j 2).isLt
  have e0 : ((((cfg0.win 2).blk t).view.emb j) 0).val = win0_2.index t (0 : Fin 3) * 2 + (j 0).val := by
    show win0_2.index t (0 : Fin 3) * 2 + 1 * (j 0).val = _; omega
  have e1 : ((((cfg0.win 2).blk t).view.emb j) 1).val = (j 1).val := by
    show win0_2.index t (1 : Fin 3) * 2048 + 1 * (j 1).val = _; omega
  have e2 : ((((cfg0.win 2).blk t).view.emb j) 2).val = win0_2.index t (2 : Fin 3) * 128 + (j 2).val := by
    show win0_2.index t (2 : Fin 3) * 128 + 1 * (j 2).val = _; omega
  exact block_point (iblk m c 0 t) (iblk m c 1 t) (V m c main_v0) (V m c main_v1)
    (win0_2.index t (0 : Fin 3)) (win0_2.index t (2 : Fin 3))
    (fun y i h0 h1 h2 => iblk0_apply m c t y i (by omega) (by omega) (by omega))
    (fun y i h0 h1 h2 => iblk1_apply m c t y i (by omega) (by omega) (by omega))
    j (((cfg0.win 2).blk t).view.emb j) e0 e1 e2

/-- So the region's output array ends holding the merged result. -/
theorem final (c : Dev nD) : (dats m 0 c).arrAt 2 cfg0.N = G3 (V m c main_v0) (V m c main_v1) :=
  (dats m 0 c).arrAt_eq_of_cover 2 (G3 (V m c main_v0) (V m c main_v1)) (fun t _ => flushed_eq m c t) cover

/-! ## The host side: the two views before the region and the view after it -/
/-- When the region is entered, the merged value array is the value argument with its last two axes merged. -/
theorem V_v0 (c : Dev nD) : (V m c main_v0 : S64x2048x256.Idx → EReal)
    = shapeCast S64x2048x256 (m ((c : Thread nD τ).loc main_arg0) : S64x2048x64x4.Idx → EReal) shapeCasts_S64x2048x64x4_S64x2048x256 := by
  show StableHlo.after hostOps0 (fun b => m (c, b)) (Proc.devRef .tc main_v0) = _
  after_results
  rfl

/-- And the merged mask array the mask argument with its last two axes merged. -/
theorem V_v1 (c : Dev nD) : (V m c main_v1 : S64x2048x256.Idx → BitVec 32)
    = shapeCast S64x2048x256 (m ((c : Thread nD τ).loc main_arg1) : S64x2048x64x4.Idx → BitVec 32) shapeCasts_S64x2048x64x4_S64x2048x256 := by
  show StableHlo.after hostOps0 (fun b => m (c, b)) (Proc.devRef .tc main_v1) = _
  after_results
  rfl

/-- After the region, the result is the region's output array with its last axis split in two again. -/
theorem tail_v3 (c : Dev nD) :
    (Pipeline.afterTail₀ cfgs (dats m) 0 (V0 m) [hostOps1] c main_v3 : S64x2048x64x4.Idx → EReal)
      = shapeCast S64x2048x64x4 ((dats m 0 c).arrAt 2 cfg0.N : S64x2048x256.Idx → EReal) shapeCasts_S64x2048x256_S64x2048x64x4 := by
  unfold Pipeline.afterTail₀
  show StableHlo.after hostOps1 _ (Proc.devRef .tc main_v3) = _
  after_results
  rw [Pipeline.withArrays_arr spec0 launch0.win.arr_inj c _ _ 2]
  rfl

/-! ## The run -/

/-- The result array after the run: the interpolated array of the two arguments. -/
theorem result_eq (c : Dev nD) :
    (Pipeline.afterTail₀ cfgs (dats m) 0 (V0 m) [hostOps1] c main_v3 : S64x2048x64x4.Idx → EReal)
      = Cert.Interp.G (m ((c : Thread nD τ).loc main_arg0)) (m ((c : Thread nD τ).loc main_arg1)) := by
  rw [tail_v3, final, V_v0, V_v1]
  exact G3_merge _ _

end

/-- The kernel program's run, with its result named: the interpolated array of its two arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Interp.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefWindow.lean ====
/-
  The reference's two position arrays.

  The reference marks every observed position with itself and every other one with a sentinel, then takes, along the
  time axis, the running maximum from the start (a window of 2048 padded 2047 before) and the running minimum from the
  end (padded 2047 after).  At `(b, t, k, c)` these are the last observed position of the series at or before `t` and
  the first one at or after `t`.

  A window's result is a left fold of the signed maximum (minimum) from the initial word over the window's 2048
  positions. Such a fold bounds the initial word and every element, and is one of them. The window starting at time `t`
  reads, at its position `n`, time `t + n - 2047` (looking back) or `t + n` (looking ahead) where that lies on the axis
  and the initial word elsewhere; the initial word (the least, resp. greatest, signed word) is never the result, since the
  mark of `t` itself is in the window.
-/
import proofs.«414883_j54760833024018_3_alg».proof.Proof.RefRead
import proofs.«414883_j54760833024018_3_alg».proof.Proof.Spec

noncomputable section

namespace Cert.ReferenceIdeal.RefValue

open Idealize.ShloMosaic Idealize.ShloMosaic.ValueIdx Cert.ReferenceIdeal Cert.ReferenceIdeal.Read

/-! ## A running signed maximum / minimum over a list -/

theorem maxsi_toInt (x y : BitVec 32) : (IntOp.maxsi x y).toInt = max x.toInt y.toInt := by
  unfold IntOp.maxsi
  by_cases h : y.slt x
  · rw [if_pos h]; have := BitVec.slt_iff_toInt_lt.1 h; omega
  · rw [if_neg h]; have : ¬ y.toInt < x.toInt := fun h' => h (BitVec.slt_iff_toInt_lt.2 h'); omega

theorem maxsi_cases (x y : BitVec 32) : IntOp.maxsi x y = x ∨ IntOp.maxsi x y = y := by
  unfold IntOp.maxsi
  by_cases h : y.slt x
  · left; rw [if_pos h]
  · right; rw [if_neg h]

theorem minsi_toInt (x y : BitVec 32) : (IntOp.minsi x y).toInt = min x.toInt y.toInt := by
  unfold IntOp.minsi
  by_cases h : x.slt y
  · rw [if_pos h]; have := BitVec.slt_iff_toInt_lt.1 h; omega
  · rw [if_neg h]; have : ¬ x.toInt < y.toInt := fun h' => h (BitVec.slt_iff_toInt_lt.2 h'); omega

theorem minsi_cases (x y : BitVec 32) : IntOp.minsi x y = x ∨ IntOp.minsi x y = y := by
  unfold IntOp.minsi
  by_cases h : x.slt y
  · left; rw [if_pos h]
  · right; rw [if_neg h]

theorem foldl_maxsi_ge {ι : Type} (g : ι → BitVec 32) (l : List ι) (v : BitVec 32) :
    v.toInt ≤ (l.foldl (fun r n => IntOp.maxsi r (g n)) v).toInt ∧
      ∀ n ∈ l, (g n).toInt ≤ (l.foldl (fun r n => IntOp.maxsi r (g n)) v).toInt := by
  induction l generalizing v with
  | nil => exact ⟨le_refl _, fun n hn => absurd hn (List.not_mem_nil)⟩
  | cons a l ih =>
    rw [List.foldl_cons]
    obtain ⟨h1, h2⟩ := ih (IntOp.maxsi v (g a))
    have hm := maxsi_toInt v (g a)
    refine ⟨by omega, fun n hn => ?_⟩
    rcases List.mem_cons.1 hn with rfl | hn
    · omega
    · exact h2 n hn

theorem foldl_maxsi_mem {ι : Type} (g : ι → BitVec 32) (l : List ι) (v : BitVec 32) :
    l.foldl (fun r n => IntOp.maxsi r (g n)) v = v ∨
      ∃ n ∈ l, l.foldl (fun r n => IntOp.maxsi r (g n)) v = g n := by
  induction l generalizing v with
  | nil => exact Or.inl rfl
  | cons a l ih =>
    rw [List.foldl_cons]
    rcases ih (IntOp.maxsi v (g a)) with h | ⟨n, hn, h⟩
    · rcases maxsi_cases v (g a) with h' | h'
      · exact Or.inl (h.trans h')
      · exact Or.inr ⟨a, List.mem_cons_self, h.trans h'⟩
    · exact Or.inr ⟨n, List.mem_cons_of_mem _ hn, h⟩

theorem foldl_minsi_le {ι : Type} (g : ι → BitVec 32) (l : List ι) (v : BitVec 32) :
    (l.foldl (fun r n => IntOp.minsi r (g n)) v).toInt ≤ v.toInt ∧
      ∀ n ∈ l, (l.foldl (fun r n => IntOp.minsi r (g n)) v).toInt ≤ (g n).toInt := by
  induction l generalizing v with
  | nil => exact ⟨le_refl _, fun n hn => absurd hn (List.not_mem_nil)⟩
  | cons a l ih =>
    rw [List.foldl_cons]
    obtain ⟨h1, h2⟩ := ih (IntOp.minsi v (g a))
    have hm := minsi_toInt v (g a)
    refine ⟨by omega, fun n hn => ?_⟩
    rcases List.mem_cons.1 hn with rfl | hn
    · omega
    · exact h2 n hn

theorem foldl_minsi_mem {ι : Type} (g : ι → BitVec 32) (l : List ι) (v : BitVec 32) :
    l.foldl (fun r n => IntOp.minsi r (g n)) v = v ∨
      ∃ n ∈ l, l.foldl (fun r n => IntOp.minsi r (g n)) v = g n := by
  induction l generalizing v with
  | nil => exact Or.inl rfl
  | cons a l ih =>
    rw [List.foldl_cons]
    rcases ih (IntOp.minsi v (g a)) with h | ⟨n, hn, h⟩
    · rcases minsi_cases v (g a) with h' | h'
      · exact Or.inl (h.trans h')
      · exact Or.inr ⟨a, List.mem_cons_self, h.trans h'⟩
    · exact Or.inr ⟨n, List.mem_cons_of_mem _ hn, h⟩

/-! ## The window along the time axis -/

/-- The window's shape: one position on every axis but the time axis. -/
abbrev W4 : Shape := ⟨4, ![1, 2048, 1, 1]⟩

theorem W4_numel : W4.numel = 2048 := by
  simp [Shape.numel, Fin.prod_univ_succ]

/-- The window position numbered `n` in row-major order is `(0, n, 0, 0)`. -/
theorem W4_coords (n : Fin W4.numel) :
    ((W4.rowMajor.symm n) 0).val = 0 ∧ ((W4.rowMajor.symm n) 1).val = n.val ∧
      ((W4.rowMajor.symm n) 2).val = 0 ∧ ((W4.rowMajor.symm n) 3).val = 0 := by
  have h : n.val = ((((W4.rowMajor.symm n) 0).val * 2048 + ((W4.rowMajor.symm n) 1).val) * 1
      + ((W4.rowMajor.symm n) 2).val) * 1 + ((W4.rowMajor.symm n) 3).val := by
    have h' := Shape.rowMajor_val_four (W4.rowMajor.symm n)
    rw [Equiv.apply_symm_apply] at h'
    exact h'
  have h0 : ((W4.rowMajor.symm n) 0).val < 1 := ((W4.rowMajor.symm n) 0).isLt
  have h2 : ((W4.rowMajor.symm n) 2).val < 1 := ((W4.rowMajor.symm n) 2).isLt
  have h3 : ((W4.rowMajor.symm n) 3).val < 1 := ((W4.rowMajor.symm n) 3).isLt
  omega

/-- The arguments' shape. -/
abbrev A4 : Shape := ⟨4, ![64, 2048, 64, 4]⟩

/-- What the window starting at time `t` reads at its position `n`, the operand padded `L` positions before the axis:
    the operand at time `t + n - L` where that is on the axis, the padding word elsewhere. -/
def winElt {α : Type} (x : A4.Idx → α) (v : α) (L : ℕ) (b : Fin 64) (t : Fin 2048) (k : Fin 64) (c : Fin 4) (n : ℕ) : α :=
  if h : L ≤ t.val + n ∧ t.val + n - L < 2048 then x (ix4 b ⟨t.val + n - L, h.2⟩ k c) else v

theorem reduceWindow_time {α : Type} {u : Shape} (f : α → α → α) (L H : ℕ) (x : A4.Idx → α) (init : u.Idx → α)
    (h : A4.ReduceWindows (![1, 2048, 1, 1] : Fin 4 → Nat) ![1, 1, 1, 1] ![0, L, 0, 0] ![0, H, 0, 0] A4)
    (hu : 0 < u.numel) (b : Fin 64) (t : Fin 2048) (k : Fin 64) (c : Fin 4) :
    Host.reduceWindow f ![1, 2048, 1, 1] ![1, 1, 1, 1] ![0, L, 0, 0] ![0, H, 0, 0] x init h hu (ix4 b t k c)
      = (List.finRange W4.numel).foldl
          (fun r n => f r (winElt x (init (Shape.Idx.first hu)) L b t k c n.val)) (init (Shape.Idx.first hu)) := by
  unfold Host.reduceWindow
  simp only []
  congr 1
  funext r n
  congr 1
  obtain ⟨c0, c1, c2, c3⟩ := W4_coords n
  unfold winElt
  by_cases hc : L ≤ t.val + n.val ∧ t.val + n.val - L < 2048
  · rw [dif_pos hc]
    split
    · congr 1
      funext a
      match a with
      | ⟨0, _⟩ =>
        apply Fin.ext
        show b.val * 1 + (W4.rowMajor.symm n 0).val - 0 = b.val
        omega
      | ⟨1, _⟩ =>
        apply Fin.ext
        show t.val * 1 + (W4.rowMajor.symm n 1).val - L = t.val + n.val - L
        omega
      | ⟨2, _⟩ =>
        apply Fin.ext
        show k.val * 1 + (W4.rowMajor.symm n 2).val - 0 = k.val
        omega
      | ⟨3, _⟩ =>
        apply Fin.ext
        show c.val * 1 + (W4.rowMajor.symm n 3).val - 0 = c.val
        omega
    · rename_i hall
      exfalso
      apply hall
      intro a
      match a with
      | ⟨0, _⟩ =>
        show 0 ≤ b.val * 1 + (W4.rowMajor.symm n 0).val ∧ b.val * 1 + (W4.rowMajor.symm n 0).val - 0 < 64
        omega
      | ⟨1, _⟩ =>
        show L ≤ t.val * 1 + (W4.rowMajor.symm n 1).val ∧ t.val * 1 + (W4.rowMajor.symm n 1).val - L < 2048
        omega
      | ⟨2, _⟩ =>
        show 0 ≤ k.val * 1 + (W4.rowMajor.symm n 2).val ∧ k.val * 1 + (W4.rowMajor.symm n 2).val - 0 < 64
        omega
      | ⟨3, _⟩ =>
        show 0 ≤ c.val * 1 + (W4.rowMajor.symm n 3).val ∧ c.val * 1 + (W4.rowMajor.symm n 3).val - 0 < 4
        omega
  · rw [dif_neg hc]
    split
    · rename_i hall
      exfalso
      apply hc
      have h1 := hall 1
      have h1' : L ≤ t.val * 1 + (W4.rowMajor.symm n 1).val ∧ t.val * 1 + (W4.rowMajor.symm n 1).val - L < 2048 := h1
      omega
    · rfl

/-- A window position whose time `t + n - L` is the position `u` of the axis reads the operand there. -/
theorem winElt_of_time {α : Type} (x : A4.Idx → α) (v : α) (L : ℕ) (b : Fin 64) (t : Fin 2048) (k : Fin 64) (c : Fin 4)
    (n u : ℕ) (hu : u < 2048) (hL : L ≤ t.val + n) (e : t.val + n - L = u) :
    winElt x v L b t k c n = x (ix4 b ⟨u, hu⟩ k c) := by
  subst e
  unfold winElt
  rw [dif_pos ⟨hL, hu⟩]

/-- A window position off the axis reads the padding word. -/
theorem winElt_pad {α : Type} (x : A4.Idx → α) (v : α) (L : ℕ) (b : Fin 64) (t : Fin 2048) (k : Fin 64) (c : Fin 4)
    (n : ℕ) (h : ¬ (L ≤ t.val + n ∧ t.val + n - L < 2048)) : winElt x v L b t k c n = v := by
  unfold winElt
  rw [dif_neg h]

/-! ## The marks -/

/-- A select on "the word is not zero" is the `if`. -/
theorem select_ne_zero {α : Type} (a : BitVec 32) (p q : α) :
    Scalar.select (IntOp.cmpi .ne a 0#32) p q = if a ≠ 0#32 then p else q := by
  unfold Scalar.select IntOp.cmpi
  by_cases h : a = 0#32
  · subst h; simp
  · have hb : (a != 0#32) = true := bne_iff_ne.2 h
    rw [if_pos h]
    simp only [hb]
    exact if_pos (by decide)

/-- A position of the axis, as a word, reads back as itself. -/
theorem toInt_ofNat_pos (u : ℕ) (h : u < 2048) : (BitVec.ofNat 32 u).toInt = (u : ℤ) := by
  have hn : (BitVec.ofNat 32 u).toNat = u := by
    rw [BitVec.toNat_ofNat]; exact Nat.mod_eq_of_lt (by omega)
  rw [BitVec.toInt_eq_toNat_of_lt (by rw [hn]; omega), hn]

theorem col4_apply (x1 : IVec S64x2048x64x4 32) (b : Fin 64) (k : Fin 64) (c : Fin 4) (u : ℕ) (hu : u < 2048) :
    Cert.Interp.col4 0#32 x1 b k c u = x1 (ix4 b ⟨u, hu⟩ k c) := by
  unfold Cert.Interp.col4
  rw [dif_pos hu]

/-- The time coordinate, broadcast over the array. -/
theorem time_word (b : Fin 64) (u : ℕ) (hu : u < 2048) (k : Fin 64) (c : Fin 4) :
    val_main_v4 (F := Ideal) (ix4 b ⟨u, hu⟩ k c) = BitVec.ofNat 32 u := by
  rw [val_main_v4_apply, val_main_v1_apply, val_main_v0_apply]

/-- Looking back, position `u` is marked with itself where observed and with `-1` elsewhere. -/
theorem mark_below (x1 : IVec S64x2048x64x4 32) (b : Fin 64) (u : ℕ) (hu : u < 2048) (k : Fin 64) (c : Fin 4) :
    (val_main_v5 (F := Ideal) x1 (ix4 b ⟨u, hu⟩ k c)).toInt
      = if Cert.Interp.Obs (Cert.Interp.col4 0#32 x1 b k c) u then (u : ℤ) else -1 := by
  have hsent : val_main_call0_v1 (F := Ideal) (ix4 b ⟨u, hu⟩ k c) = 4294967295#32 := by
    rw [val_main_call0_v1_apply, val_main_call0_v0_apply, val_main_c_0_apply]
  have hz : val_main_v2 (F := Ideal) (ix4 b ⟨u, hu⟩ k c) = 0#32 := by
    rw [val_main_v2_apply, val_main_c_apply]
  rw [val_main_v5_apply, val_main_v3_apply, time_word, hsent, hz, select_ne_zero]
  unfold Cert.Interp.Obs
  rw [col4_apply x1 b k c u hu]
  by_cases h0 : x1 (ix4 b ⟨u, hu⟩ k c) = 0#32
  · rw [if_neg (not_not.2 h0), if_neg (not_not.2 h0)]; decide
  · rw [if_pos h0, if_pos h0]; exact toInt_ofNat_pos u hu

/-- Looking ahead, position `u` is marked with itself where observed and with the axis length elsewhere. -/
theorem mark_above (x1 : IVec S64x2048x64x4 32) (b : Fin 64) (u : ℕ) (hu : u < 2048) (k : Fin 64) (c : Fin 4) :
    (val_main_v7 (F := Ideal) x1 (ix4 b ⟨u, hu⟩ k c)).toInt
      = if Cert.Interp.Obs (Cert.Interp.col4 0#32 x1 b k c) u then (u : ℤ) else (Cert.Interp.T : ℤ) := by
  have hsent : val_main_call2_v1 (F := Ideal) (ix4 b ⟨u, hu⟩ k c) = 2048#32 := by
    rw [val_main_call2_v1_apply, val_main_call2_v0_apply, val_main_c_1_apply]
  have hz : val_main_v2 (F := Ideal) (ix4 b ⟨u, hu⟩ k c) = 0#32 := by
    rw [val_main_v2_apply, val_main_c_apply]
  rw [val_main_v7_apply, val_main_v3_apply, time_word, hsent, hz, select_ne_zero]
  unfold Cert.Interp.Obs
  rw [col4_apply x1 b k c u hu]
  by_cases h0 : x1 (ix4 b ⟨u, hu⟩ k c) = 0#32
  · rw [if_neg (not_not.2 h0), if_neg (not_not.2 h0)]; decide
  · rw [if_pos h0, if_pos h0]; exact toInt_ofNat_pos u hu

/-! ## The two position words -/

/-- The running maximum of the marked positions is the last observed position. -/
theorem last_word (x1 : IVec S64x2048x64x4 32) (b : Fin 64) (t : Fin 2048) (k : Fin 64) (c : Fin 4) :
    (val_main_v6 (F := Ideal) x1 (ix4 b t k c)).toInt = Cert.Interp.lastObs (Cert.Interp.col4 0#32 x1 b k c) t.val := by
  have hR : val_main_v6 (F := Ideal) x1 (ix4 b t k c) = _ :=
    reduceWindow_time IntOp.maxsi 2047 0 (val_main_v5 (F := Ideal) x1) (val_main_call1_v0 (F := Ideal)) _ _ b t k c
  rw [hR]
  generalize hv : val_main_call1_v0 (F := Ideal) (Shape.Idx.first _) = v
  have hvInt : v.toInt = -2147483648 := by
    rw [← hv, val_main_call1_v0_apply, val_main_call1_c_apply]; decide
  obtain ⟨-, hge⟩ := foldl_maxsi_ge (fun n : Fin W4.numel => winElt (val_main_v5 (F := Ideal) x1) v 2047 b t k c n.val)
    (List.finRange W4.numel) v
  have hmem := foldl_maxsi_mem (fun n : Fin W4.numel => winElt (val_main_v5 (F := Ideal) x1) v 2047 b t k c n.val)
    (List.finRange W4.numel) v
  generalize (List.finRange W4.numel).foldl
    (fun r n => IntOp.maxsi r (winElt (val_main_v5 (F := Ideal) x1) v 2047 b t k c n.val)) v = R at hge hmem ⊢
  have ht := t.isLt
  -- every position at or before `t` is in the window
  have hub : ∀ u, u ≤ t.val →
      (if Cert.Interp.Obs (Cert.Interp.col4 0#32 x1 b k c) u then (u : ℤ) else -1) ≤ R.toInt := by
    intro u hu
    have hu' : u < 2048 := by omega
    have hn : u + 2047 - t.val < W4.numel := by rw [W4_numel]; omega
    have h1 := hge ⟨u + 2047 - t.val, hn⟩ (List.mem_finRange _)
    have hg : winElt (val_main_v5 (F := Ideal) x1) v 2047 b t k c (u + 2047 - t.val)
        = val_main_v5 (F := Ideal) x1 (ix4 b ⟨u, hu'⟩ k c) :=
      winElt_of_time _ v 2047 b t k c _ u hu' (by omega) (by omega)
    have h2 : (winElt (val_main_v5 (F := Ideal) x1) v 2047 b t k c (u + 2047 - t.val)).toInt ≤ R.toInt := h1
    rw [hg, mark_below] at h2
    exact h2
  refine Cert.Interp.lastObs_of_max ht hub ?_
  have hRge : -1 ≤ R.toInt := by
    have h1 := hub t.val (le_refl _)
    split_ifs at h1 <;> omega
  rcases hmem with hv' | ⟨n, -, hn⟩
  · exfalso; rw [hv'] at hRge; omega
  · have hnlt : n.val < 2048 := lt_of_lt_of_eq n.isLt W4_numel
    have hn' : R = winElt (val_main_v5 (F := Ideal) x1) v 2047 b t k c n.val := hn
    by_cases hc : 2047 ≤ t.val + n.val ∧ t.val + n.val - 2047 < 2048
    · refine ⟨t.val + n.val - 2047, by omega, ?_⟩
      rw [hn', winElt_of_time _ v 2047 b t k c n.val _ hc.2 hc.1 rfl]
      exact mark_below x1 b _ hc.2 k c
    · exfalso
      have : R = v := by rw [hn']; exact winElt_pad _ v 2047 b t k c n.val hc
      rw [this] at hRge; omega

/-- The running minimum from the end of the marked positions is the first observed position. -/
theorem first_word (x1 : IVec S64x2048x64x4 32) (b : Fin 64) (t : Fin 2048) (k : Fin 64) (c : Fin 4) :
    (val_main_v8 (F := Ideal) x1 (ix4 b t k c)).toInt = Cert.Interp.firstObs (Cert.Interp.col4 0#32 x1 b k c) t.val := by
  have hR : val_main_v8 (F := Ideal) x1 (ix4 b t k c) = _ :=
    reduceWindow_time IntOp.minsi 0 2047 (val_main_v7 (F := Ideal) x1) (val_main_call3_v0 (F := Ideal)) _ _ b t k c
  rw [hR]
  generalize hv : val_main_call3_v0 (F := Ideal) (Shape.Idx.first _) = v
  have hvInt : v.toInt = 2147483647 := by
    rw [← hv, val_main_call3_v0_apply, val_main_call3_c_apply]; decide
  obtain ⟨-, hle⟩ := foldl_minsi_le (fun n : Fin W4.numel => winElt (val_main_v7 (F := Ideal) x1) v 0 b t k c n.val)
    (List.finRange W4.numel) v
  have hmem := foldl_minsi_mem (fun n : Fin W4.numel => winElt (val_main_v7 (F := Ideal) x1) v 0 b t k c n.val)
    (List.finRange W4.numel) v
  generalize (List.finRange W4.numel).foldl
    (fun r n => IntOp.minsi r (winElt (val_main_v7 (F := Ideal) x1) v 0 b t k c n.val)) v = R at hle hmem ⊢
  have ht := t.isLt
  -- every position of the axis at or after `t` is in the window
  have hlb : ∀ u, t.val ≤ u → u < Cert.Interp.T →
      R.toInt ≤ (if Cert.Interp.Obs (Cert.Interp.col4 0#32 x1 b k c) u then (u : ℤ) else (Cert.Interp.T : ℤ)) := by
    intro u hu hu'
    have hu2 : u < 2048 := hu'
    have hn : u - t.val < W4.numel := by rw [W4_numel]; omega
    have h1 := hle ⟨u - t.val, hn⟩ (List.mem_finRange _)
    have hg : winElt (val_main_v7 (F := Ideal) x1) v 0 b t k c (u - t.val)
        = val_main_v7 (F := Ideal) x1 (ix4 b ⟨u, hu2⟩ k c) :=
      winElt_of_time _ v 0 b t k c _ u hu2 (by omega) (by omega)
    have h2 : R.toInt ≤ (winElt (val_main_v7 (F := Ideal) x1) v 0 b t k c (u - t.val)).toInt := h1
    rw [hg, mark_above] at h2
    exact h2
  refine Cert.Interp.firstObs_of_min ht hlb ?_
  have hRle : R.toInt ≤ 2048 := by
    have h1 := hlb t.val (le_refl _) ht
    have hT : (Cert.Interp.T : ℤ) = 2048 := rfl
    split_ifs at h1
    · omega
    · omega
  rcases hmem with hv' | ⟨n, -, hn⟩
  · exfalso; rw [hv'] at hRle; omega
  · have hnlt : n.val < 2048 := lt_of_lt_of_eq n.isLt W4_numel
    have hn' : R = winElt (val_main_v7 (F := Ideal) x1) v 0 b t k c n.val := hn
    by_cases hc : 0 ≤ t.val + n.val ∧ t.val + n.val - 0 < 2048
    · refine ⟨t.val + n.val - 0, by omega, hc.2, ?_⟩
      rw [hn', winElt_of_time _ v 0 b t k c n.val _ hc.2 hc.1 rfl]
      exact mark_above x1 b _ hc.2 k c
    · exfalso
      have : R = v := by rw [hn']; exact winElt_pad _ v 0 b t k c n.val hc
      rw [this] at hRle; omega

end Cert.ReferenceIdeal.RefValue

end
-- ==== Proof.RefPoint.lean ====
/-
  The reference's result array.

  From the two position arrays the reference reads the series' values at the two positions (the positions clipped
  into the axis first, so that a sentinel reads some value that is then never chosen), forms the weight and the
  straight line, and chooses.  At every index that is the series interpolated.
-/
import proofs.«414883_j54760833024018_3_alg».proof.Proof.RefWindow
import Idealize.ShloMosaic.Lib.Affine
import Idealize.ShloMosaic.PureOps.Ideal.Laws

noncomputable section

namespace Cert.ReferenceIdeal.RefValue

open Idealize.ShloMosaic Idealize.ShloMosaic.ValueIdx Cert.ReferenceIdeal Cert.ReferenceIdeal.Read

namespace Point

/-! ## Signed maximum and minimum, read as integers -/

theorem toInt_maxsi {w : Nat} (x y : BitVec w) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

theorem toInt_minsi {w : Nat} (x y : BitVec w) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- A position word clipped into the axis, read as an integer. -/
theorem toInt_clip (a : BitVec 32) :
    (IntOp.minsi 2047#32 (IntOp.maxsi 0#32 a)).toInt = min 2047 (max 0 a.toInt) := by
  rw [toInt_minsi, toInt_maxsi]
  have h1 : (2047#32 : BitVec 32).toInt = 2047 := by decide
  have h0 : (0#32 : BitVec 32).toInt = 0 := by decide
  rw [h1, h0]

/-! ## A conjunction over a unit axis of flags that are all set -/

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_ones f l (fun n hn => h n (List.mem_cons_of_mem _ hn))

theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  unfold Host.reduce
  rw [hinit]
  exact foldl_andi_ones (fun n => x (s.rowMajor.symm n)) _ (fun n _ => hx _)

/-! ## The gather along the time axis, read at an index -/

section Gather
variable {α : Type} {w : Nat}

theorem gather_axis0 (idx : IVec S64x2048x64x4x1 w) (b : Fin 64) (t : Fin 2048) (k : Fin 64) (c : Fin 4) :
    ((gather_S64x2048x64x4_S64x2048x64x4x1_S64x2048x64x4_n_1_023_023_1_4_1111).operandIdx (ix4 b t k c) idx 0).val = b.val := by
  show GatherDims.start _ (ix4 b t k c) idx 0 + GatherDims.batchCoord _ (ix4 b t k c) 0 + GatherDims.offCoord _ (ix4 b t k c) 0 = b.val
  rw [GatherDims.start_batching _ _ _ _ (by decide), GatherDims.offCoord_eq_zero _ _ _ (by decide), Nat.zero_add, Nat.add_zero]
  rfl

theorem gather_axis2 (idx : IVec S64x2048x64x4x1 w) (b : Fin 64) (t : Fin 2048) (k : Fin 64) (c : Fin 4) :
    ((gather_S64x2048x64x4_S64x2048x64x4x1_S64x2048x64x4_n_1_023_023_1_4_1111).operandIdx (ix4 b t k c) idx 2).val = k.val := by
  show GatherDims.start _ (ix4 b t k c) idx 2 + GatherDims.batchCoord _ (ix4 b t k c) 2 + GatherDims.offCoord _ (ix4 b t k c) 2 = k.val
  rw [GatherDims.start_batching _ _ _ _ (by decide), GatherDims.offCoord_eq_zero _ _ _ (by decide), Nat.zero_add, Nat.add_zero]
  rfl

theorem gather_axis3 (idx : IVec S64x2048x64x4x1 w) (b : Fin 64) (t : Fin 2048) (k : Fin 64) (c : Fin 4) :
    ((gather_S64x2048x64x4_S64x2048x64x4x1_S64x2048x64x4_n_1_023_023_1_4_1111).operandIdx (ix4 b t k c) idx 3).val = c.val := by
  show GatherDims.start _ (ix4 b t k c) idx 3 + GatherDims.batchCoord _ (ix4 b t k c) 3 + GatherDims.offCoord _ (ix4 b t k c) 3 = c.val
  rw [GatherDims.start_batching _ _ _ _ (by decide), GatherDims.offCoord_eq_zero _ _ _ (by decide), Nat.zero_add, Nat.add_zero]
  rfl

theorem gather_axis1 (idx : IVec S64x2048x64x4x1 w) (b : Fin 64) (t : Fin 2048) (k : Fin 64) (c : Fin 4) :
    ((gather_S64x2048x64x4_S64x2048x64x4x1_S64x2048x64x4_n_1_023_023_1_4_1111).operandIdx (ix4 b t k c) idx 1).val
      = min (idx (ix5 b t k c 0)).toInt.toNat 2047 := by
  show GatherDims.start _ (ix4 b t k c) idx 1 + GatherDims.batchCoord _ (ix4 b t k c) 1 + GatherDims.offCoord _ (ix4 b t k c) 1 = _
  rw [GatherDims.batchCoord_eq_zero _ _ _ (by decide), GatherDims.offCoord_eq_zero _ _ _ (by decide), Nat.add_zero]
  unfold GatherDims.start
  rw [dif_pos (by decide)]
  have hsi : (gather_S64x2048x64x4_S64x2048x64x4x1_S64x2048x64x4_n_1_023_023_1_4_1111).siIdx (ix4 b t k c)
      ⟨List.idxOf (1 : Fin 4) (gather_S64x2048x64x4_S64x2048x64x4x1_S64x2048x64x4_n_1_023_023_1_4_1111).startIndexMap,
        List.idxOf_lt_length_iff.2 (by decide)⟩ = ix5 b t k c 0 := by
    funext a; refine Fin.ext ?_
    match a with
    | ⟨0, _⟩ => rfl
    | ⟨1, _⟩ => rfl
    | ⟨2, _⟩ => rfl
    | ⟨3, _⟩ => rfl
    | ⟨4, _⟩ => rfl
  rw [hsi]
  rfl

/-- The gather reads, at `(b, t, k, c)`, the operand's series `(b, ·, k, c)` at the start index of that place, read
    signed and clamped into the axis. -/
theorem gather_at (x : S64x2048x64x4.Idx → α) (idx : IVec S64x2048x64x4x1 w) (b : Fin 64) (t : Fin 2048) (k : Fin 64)
    (c : Fin 4) :
    Host.gather gather_S64x2048x64x4_S64x2048x64x4x1_S64x2048x64x4_n_1_023_023_1_4_1111 x idx (ix4 b t k c)
      = x (ix4 b ⟨min (idx (ix5 b t k c 0)).toInt.toNat 2047, by omega⟩ k c) := by
  unfold Host.gather
  congr 1
  funext a
  refine Fin.ext ?_
  match a with
  | ⟨0, _⟩ => exact gather_axis0 idx b t k c
  | ⟨1, _⟩ => exact gather_axis1 idx b t k c
  | ⟨2, _⟩ => exact gather_axis2 idx b t k c
  | ⟨3, _⟩ => exact gather_axis3 idx b t k c

end Gather

/-! ## Series of the argument arrays -/

theorem col4_at {α : Type} (z : α) (a : Cert.Interp.S4.Idx → α) (b : Fin 64) (k : Fin 64) (c : Fin 4) (n : ℕ) (hn : n < 2048) :
    Cert.Interp.col4 z a b k c n = a (ix4 b ⟨n, hn⟩ k c) := by
  unfold Cert.Interp.col4
  exact dif_pos hn

theorem col4_self {α : Type} (z : α) (a : Cert.Interp.S4.Idx → α) (b : Fin 64) (t : Fin 2048) (k : Fin 64) (c : Fin 4) :
    Cert.Interp.col4 z a b k c t.val = a (ix4 b t k c) :=
  col4_at z a b k c t.val t.isLt

/-- The gather, read as the series' value at the clamped start index. -/
theorem gather_col {w : Nat} (x : S64x2048x64x4.Idx → EReal) (idx : IVec S64x2048x64x4x1 w) (b : Fin 64) (t : Fin 2048)
    (k : Fin 64) (c : Fin 4) :
    Host.gather gather_S64x2048x64x4_S64x2048x64x4x1_S64x2048x64x4_n_1_023_023_1_4_1111 x idx (ix4 b t k c)
      = Cert.Interp.col4 (0 : EReal) x b k c (min (idx (ix5 b t k c 0)).toInt.toNat 2047) :=
  (gather_at x idx b t k c).trans (col4_at (0 : EReal) x b k c _ (by omega)).symm

/-- The index array of the gather is the index array of the call, one unit axis appended. -/
theorem unit_axis_ix (b : Fin 64) (t : Fin 2048) (k : Fin 64) (c : Fin 4) (e : Fin 1) :
    idx_main_call5_v5 (ix5 b t k c e) = ix4 b t k c := by
  have hb := b.isLt; have ht := t.isLt; have hk := k.isLt; have hc := c.isLt; have he := e.isLt
  funext a
  refine Fin.ext ?_
  match a with
  | ⟨0, _⟩ => show ((((b.val * 2048 + t.val) * 64 + k.val) * 4 + c.val) * 1 + e.val) / 524288 = b.val; omega
  | ⟨1, _⟩ => show ((((b.val * 2048 + t.val) * 64 + k.val) * 4 + c.val) * 1 + e.val) / 256 % 2048 = t.val; omega
  | ⟨2, _⟩ => show ((((b.val * 2048 + t.val) * 64 + k.val) * 4 + c.val) * 1 + e.val) / 4 % 64 = k.val; omega
  | ⟨3, _⟩ => show ((((b.val * 2048 + t.val) * 64 + k.val) * 4 + c.val) * 1 + e.val) % 4 = c.val; omega

theorem unit_axis_ix' (b : Fin 64) (t : Fin 2048) (k : Fin 64) (c : Fin 4) (e : Fin 1) :
    idx_main_call7_v5 (ix5 b t k c e) = ix4 b t k c := unit_axis_ix b t k c e

section Stages
variable (x0 : FVec Ideal S64x2048x64x4 .f32) (x1 : IVec S64x2048x64x4 32)

/-! ## The two clipped position arrays -/

theorem clipLast_eq (i : S64x2048x64x4.Idx) :
    val_main_v13 (F := Ideal) x1 i = IntOp.minsi 2047#32 (IntOp.maxsi 0#32 (val_main_v6 (F := Ideal) x1 i)) := by
  rw [val_main_v13_apply, val_main_call4_v4_apply, val_main_call4_v2_apply, val_main_call4_v1_apply]
  rfl

theorem clipFirst_eq (i : S64x2048x64x4.Idx) :
    val_main_v15 (F := Ideal) x1 i = IntOp.minsi 2047#32 (IntOp.maxsi 0#32 (val_main_v8 (F := Ideal) x1 i)) := by
  rw [val_main_v15_apply, val_main_call6_v4_apply, val_main_call6_v2_apply, val_main_call6_v1_apply]
  rfl

theorem clipLast_range (i : S64x2048x64x4.Idx) :
    0 ≤ (val_main_v13 (F := Ideal) x1 i).toInt ∧ (val_main_v13 (F := Ideal) x1 i).toInt ≤ 2047 := by
  rw [clipLast_eq, toInt_clip]; omega

theorem clipFirst_range (i : S64x2048x64x4.Idx) :
    0 ≤ (val_main_v15 (F := Ideal) x1 i).toInt ∧ (val_main_v15 (F := Ideal) x1 i).toInt ≤ 2047 := by
  rw [clipFirst_eq, toInt_clip]; omega

/-! ## Reading the series at the last observed position -/

/-- A clipped position is not negative, so the wrap-around of a negative index leaves it as it is. -/
theorem lastIdx_at (b : Fin 64) (t : Fin 2048) (k : Fin 64) (c : Fin 4) (e : Fin 1) :
    val_main_call5_v5 (F := Ideal) x1 (ix5 b t k c e) = val_main_v13 (F := Ideal) x1 (ix4 b t k c) := by
  rw [val_main_call5_v5_apply, unit_axis_ix, val_main_call5_v4_apply, val_main_call5_v1_apply, val_main_call5_v0_apply,
    val_main_call5_c_apply]
  have h := (clipLast_range x1 (ix4 b t k c)).1
  have hlt : IntOp.cmpi .slt (val_main_v13 (F := Ideal) x1 (ix4 b t k c)) 0#32 = 0#1 := by
    refine eq_zero_of_ne_one (fun hc => ?_)
    rw [IntOp.cmpi_slt] at hc
    have h0 : (0#32 : BitVec 32).toInt = 0 := by decide
    omega
  rw [hlt, select_zero]

/-- Every clipped position passes the gather's range test. -/
theorem lastTest_one (j : S64x2048x64x4x1.Idx) : val_main_call5_v11 (F := Ideal) x1 j = 1#1 := by
  obtain ⟨b, t, k, c, e, rfl⟩ : ∃ (b : Fin 64) (t : Fin 2048) (k : Fin 64) (c : Fin 4) (e : Fin 1), j = ix5 b t k c e :=
    ⟨j 0, j 1, j 2, j 3, j 4, eq_ix5 j⟩
  obtain ⟨h0, h1⟩ := clipLast_range x1 (ix4 b t k c)
  rw [val_main_call5_v11_apply, val_main_call5_v7_apply, val_main_call5_v10_apply, lastIdx_at, val_main_call5_v6_apply,
    val_main_call5_v9_apply, val_main_call5_v8_apply, val_main_call5_c_2_apply, val_main_call5_c_1_apply,
    IntOp.andi_eq_one, IntOp.cmpi_sge, IntOp.cmpi_sle]
  have e0 : (0#32 : BitVec 32).toInt = 0 := by decide
  have e1 : (2047#32 : BitVec 32).toInt = 2047 := by decide
  rw [e0, e1]
  exact ⟨h0, h1⟩

theorem lastFlag_one (i : S64x2048x64x4.Idx) : val_main_call5_v12 (F := Ideal) x1 i = 1#1 := by
  unfold val_main_call5_v12
  exact reduce_andi_ones _ _ _ _ (fun _ => rfl) (lastTest_one x1) i

/-- The value read for the last observed position: the series at the clipped position word. -/
theorem lastVal_at (b : Fin 64) (t : Fin 2048) (k : Fin 64) (c : Fin 4) :
    val_main_v14 (F := Ideal) x0 x1 (ix4 b t k c)
      = Cert.Interp.col4 (0 : EReal) x0 b k c (min (val_main_v13 (F := Ideal) x1 (ix4 b t k c)).toInt.toNat 2047) := by
  rw [val_main_v14_apply, lastFlag_one, select_one]
  unfold val_main_call5_v13
  rw [gather_col, lastIdx_at]

/-! ## Reading the series at the first observed position -/

theorem firstIdx_at (b : Fin 64) (t : Fin 2048) (k : Fin 64) (c : Fin 4) (e : Fin 1) :
    val_main_call7_v5 (F := Ideal) x1 (ix5 b t k c e) = val_main_v15 (F := Ideal) x1 (ix4 b t k c) := by
  rw [val_main_call7_v5_apply, unit_axis_ix', val_main_call7_v4_apply, val_main_call7_v1_apply, val_main_call7_v0_apply,
    val_main_call7_c_apply]
  have h := (clipFirst_range x1 (ix4 b t k c)).1
  have hlt : IntOp.cmpi .slt (val_main_v15 (F := Ideal) x1 (ix4 b t k c)) 0#32 = 0#1 := by
    refine eq_zero_of_ne_one (fun hc => ?_)
    rw [IntOp.cmpi_slt] at hc
    have h0 : (0#32 : BitVec 32).toInt = 0 := by decide
    omega
  rw [hlt, select_zero]

theorem firstTest_one (j : S64x2048x64x4x1.Idx) : val_main_call7_v11 (F := Ideal) x1 j = 1#1 := by
  obtain ⟨b, t, k, c, e, rfl⟩ : ∃ (b : Fin 64) (t : Fin 2048) (k : Fin 64) (c : Fin 4) (e : Fin 1), j = ix5 b t k c e :=
    ⟨j 0, j 1, j 2, j 3, j 4, eq_ix5 j⟩
  obtain ⟨h0, h1⟩ := clipFirst_range x1 (ix4 b t k c)
  rw [val_main_call7_v11_apply, val_main_call7_v7_apply, val_main_call7_v10_apply, firstIdx_at, val_main_call7_v6_apply,
    val_main_call7_v9_apply, val_main_call7_v8_apply, val_main_call7_c_2_apply, val_main_call7_c_1_apply,
    IntOp.andi_eq_one, IntOp.cmpi_sge, IntOp.cmpi_sle]
  have e0 : (0#32 : BitVec 32).toInt = 0 := by decide
  have e1 : (2047#32 : BitVec 32).toInt = 2047 := by decide
  rw [e0, e1]
  exact ⟨h0, h1⟩

theorem firstFlag_one (i : S64x2048x64x4.Idx) : val_main_call7_v12 (F := Ideal) x1 i = 1#1 := by
  unfold val_main_call7_v12
  exact reduce_andi_ones _ _ _ _ (fun _ => rfl) (firstTest_one x1) i

theorem firstVal_at (b : Fin 64) (t : Fin 2048) (k : Fin 64) (c : Fin 4) :
    val_main_v16 (F := Ideal) x0 x1 (ix4 b t k c)
      = Cert.Interp.col4 (0 : EReal) x0 b k c (min (val_main_v15 (F := Ideal) x1 (ix4 b t k c)).toInt.toNat 2047) := by
  rw [val_main_v16_apply, firstFlag_one, select_one]
  unfold val_main_call7_v13
  rw [gather_col, firstIdx_at]

/-! ## The weight, the two flags, the zero -/

theorem weight_at (b : Fin 64) (t : Fin 2048) (k : Fin 64) (c : Fin 4) :
    val_main_v23 (F := Ideal) x1 (ix4 b t k c)
      = Cert.Interp.weight (BitVec.ofNat 32 t.val) (val_main_v6 (F := Ideal) x1 (ix4 b t k c))
          (val_main_v8 (F := Ideal) x1 (ix4 b t k c)) := by
  rw [val_main_v23_apply, val_main_v21_apply, val_main_v22_apply, val_main_v20_apply, val_main_v19_apply,
    val_main_v17_apply, val_main_v18_apply, val_main_v4_apply, val_main_v1_apply]
  rfl

theorem hasLast_iff (i : S64x2048x64x4.Idx) :
    val_main_v10 (F := Ideal) x1 i = 1#1 ↔ 0 ≤ (val_main_v6 (F := Ideal) x1 i).toInt := by
  rw [val_main_v10_apply, val_main_v9_apply, val_main_c_2_apply, IntOp.cmpi_sge]
  have e0 : (0#32 : BitVec 32).toInt = 0 := by decide
  rw [e0]

theorem hasFirst_iff (i : S64x2048x64x4.Idx) :
    val_main_v12 (F := Ideal) x1 i = 1#1 ↔ (val_main_v8 (F := Ideal) x1 i).toInt ≤ 2047 := by
  rw [val_main_v12_apply, val_main_v11_apply, val_main_c_3_apply, IntOp.cmpi_sle]
  have e0 : (2047#32 : BitVec 32).toInt = 2047 := by decide
  rw [e0]

theorem zero_at (i : S64x2048x64x4.Idx) : val_main_v28 (F := Ideal) i = 0 := by
  rw [val_main_v28_apply, val_main_cst_apply]
  exact Ideal.ofBits_zero_f32

/-! ## The result at an index -/

/-- Where the series has an observed position at or before `t`, the value read is the series' value there. -/
theorem lastVal_obs (b : Fin 64) (t : Fin 2048) (k : Fin 64) (c : Fin 4)
    (h0 : 0 ≤ Cert.Interp.lastObs (Cert.Interp.col4 0#32 x1 b k c) t.val) :
    val_main_v14 (F := Ideal) x0 x1 (ix4 b t k c)
      = Cert.Interp.col4 (0 : EReal) x0 b k c (Cert.Interp.lastObs (Cert.Interp.col4 0#32 x1 b k c) t.val).toNat := by
  have hr := Cert.Interp.lastObs_range (Cert.Interp.col4 0#32 x1 b k c) t.val
  have ht := t.isLt
  rw [lastVal_at, clipLast_eq, toInt_clip, last_word x1 b t k c]
  exact congrArg (Cert.Interp.col4 (0 : EReal) x0 b k c) (by omega)

/-- Where the series has an observed position at or after `t`, the value read is the series' value there. -/
theorem firstVal_obs (b : Fin 64) (t : Fin 2048) (k : Fin 64) (c : Fin 4)
    (h1 : Cert.Interp.firstObs (Cert.Interp.col4 0#32 x1 b k c) t.val < Cert.Interp.T) :
    val_main_v16 (F := Ideal) x0 x1 (ix4 b t k c)
      = Cert.Interp.col4 (0 : EReal) x0 b k c (Cert.Interp.firstObs (Cert.Interp.col4 0#32 x1 b k c) t.val).toNat := by
  have hf := Cert.Interp.firstObs_range (Cert.Interp.col4 0#32 x1 b k c) (t := t.val) t.isLt
  have ht := t.isLt
  have hT : ((Cert.Interp.T : ℕ) : ℤ) = 2048 := rfl
  rw [hT] at h1 hf
  rw [firstVal_at, clipFirst_eq, toInt_clip, first_word x1 b t k c]
  exact congrArg (Cert.Interp.col4 (0 : EReal) x0 b k c) (by omega)

theorem hasFirst_iff' (b : Fin 64) (t : Fin 2048) (k : Fin 64) (c : Fin 4) :
    val_main_v12 (F := Ideal) x1 (ix4 b t k c) = 1#1
      ↔ Cert.Interp.firstObs (Cert.Interp.col4 0#32 x1 b k c) t.val < Cert.Interp.T := by
  have hT : ((Cert.Interp.T : ℕ) : ℤ) = 2048 := rfl
  rw [hasFirst_iff, first_word x1 b t k c, hT]
  omega

/-- The reference's chain of choices at an index, spelt over the stages' values there. -/
theorem result_unfold (i : S64x2048x64x4.Idx) :
    val_main_v32 (F := Ideal) x0 x1 i
      = Scalar.select (IntOp.cmpi .ne (x1 i) 0#32) (x0 i)
          (Scalar.select (IntOp.andi (val_main_v10 (F := Ideal) x1 i) (val_main_v12 (F := Ideal) x1 i))
            (val_main_v14 (F := Ideal) x0 x1 i + (val_main_v16 (F := Ideal) x0 x1 i - val_main_v14 (F := Ideal) x0 x1 i)
              * val_main_v23 (F := Ideal) x1 i)
            (Scalar.select (val_main_v10 (F := Ideal) x1 i) (val_main_v14 (F := Ideal) x0 x1 i)
              (Scalar.select (val_main_v12 (F := Ideal) x1 i) (val_main_v16 (F := Ideal) x0 x1 i)
                (val_main_v28 (F := Ideal) i)))) := by
  rw [val_main_v32_apply, val_main_v31_apply, val_main_v30_apply, val_main_v29_apply, val_main_v27_apply,
    val_main_v26_apply, val_main_v25_apply, val_main_v24_apply, val_main_v3_apply, val_main_v2_apply, val_main_c_apply,
    Ideal.addf_def, Ideal.mulf_def, Ideal.subf_def]

theorem result_at (b : Fin 64) (t : Fin 2048) (k : Fin 64) (c : Fin 4) :
    val_main_v32 (F := Ideal) x0 x1 (ix4 b t k c) = Cert.Interp.G x0 x1 (ix4 b t k c) := by
  have key := Cert.Interp.combine_eq (Cert.Interp.col4 0#32 x1 b k c) (Cert.Interp.col4 (0 : EReal) x0 b k c) (t := t.val) t.isLt
    (last_word x1 b t k c) (first_word x1 b t k c) (lastVal_obs x0 x1 b t k c) (firstVal_obs x0 x1 b t k c)
    (by rw [hasLast_iff, last_word x1 b t k c]) (hasFirst_iff' x1 b t k c) (zero_at (ix4 b t k c))
  rw [col4_self, col4_self] at key
  rw [result_unfold, weight_at]
  exact key

end Stages

end Point

/-- The reference's result term is the interpolated array. -/
theorem result_eq (x0 : FVec Ideal S64x2048x64x4 .f32) (x1 : IVec S64x2048x64x4 32) :
    val_main_v32 (F := Ideal) x0 x1 = Cert.Interp.G x0 x1 := by
  funext i
  obtain ⟨b, t, k, c, rfl⟩ : ∃ (b : Fin 64) (t : Fin 2048) (k : Fin 64) (c : Fin 4), i = ix4 b t k c :=
    ⟨i 0, i 1, i 2, i 3, eq_ix4 i⟩
  exact Point.result_at x0 x1 b t k c

end Cert.ReferenceIdeal.RefValue

end
-- ==== Proof.lean ====
/-
  A masked series interpolated along its time axis, by a doubling scan and by running extrema.

  Both programs take `x : f32[64, 2048, 64, 4]` and `mask : i32[64, 2048, 64, 4]` and interpolate every series
  `(b, ·, k, c)` along axis 1: where the mask word is not zero the value itself; elsewhere the straight line between
  the last observed position before and the first one after, the nearer value where only one side has one, zero
  where none has (`Cert.Interp.interp`, `Cert.Interp.G`).  The kernel finds the two positions, and the values beside
  them, by eleven doubling steps in each direction on blocks of `2 × 2048 × 128`; the reference by a running maximum
  and a running minimum of the marked positions and a clamped read of the values.  At the ideal instance both end
  at `G` of the arguments: `Cert.KernelIdeal.KValue.run` and `Cert.ReferenceIdeal.RefValue.result_eq` over the
  reference's run (`Cert.ReferenceIdeal.RunH.run`).  The idealization rewrote nothing, so `preserves` is trivial; the three frames are the kernel
  programs' frame runs and the reference's run with its result dropped.
-/
import proofs.«414883_j54760833024018_3_alg».proof.Defs
import proofs.«414883_j54760833024018_3_alg».proof.Proof.Gen.Kernel
import proofs.«414883_j54760833024018_3_alg».proof.Proof.Gen.Kernel.Skeleton
import proofs.«414883_j54760833024018_3_alg».proof.Proof.Gen.Kernel.Launch
import proofs.«414883_j54760833024018_3_alg».proof.Proof.Gen.Kernel.Points
import proofs.«414883_j54760833024018_3_alg».proof.Proof.Gen.Kernel.Frame
import proofs.«414883_j54760833024018_3_alg».proof.Proof.Gen.KernelIdeal
import proofs.«414883_j54760833024018_3_alg».proof.Proof.Gen.KernelIdeal.Skeleton
import proofs.«414883_j54760833024018_3_alg».proof.Proof.Gen.KernelIdeal.Launch
import proofs.«414883_j54760833024018_3_alg».proof.Proof.Gen.KernelIdeal.Points
import proofs.«414883_j54760833024018_3_alg».proof.Proof.Gen.KernelIdeal.Frame
import proofs.«414883_j54760833024018_3_alg».proof.Proof.Gen.ReferenceIdeal
import proofs.«414883_j54760833024018_3_alg».proof.Proof.Gen.Pre_finite_inputs
import proofs.«414883_j54760833024018_3_alg».proof.Proof.KernelArray
import proofs.«414883_j54760833024018_3_alg».proof.Proof.RefPoint
import proofs.«414883_j54760833024018_3_alg».proof.Proof.RefRun
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunH.run (F := Ideal) m ρ)

/-- From memories that agree on the two arguments both programs end at the interpolated array of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Interp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RunH.run (F := Ideal) m' ρ')
  rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
